-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x32000 .f32) (main_arg1 : FVec F S8192x32000 .f32) (main_arg2 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : FVec F S8192x32000 .f32 := Host.absf main_arg1
  let main_cst_0 : FVec F S_ .f32 := constant S_ .f32 0x7F800000#32
  let main_v5 : FVec F S8192x32000 .f32 := broadcastInDim S8192x32000 ![] bcast_S_S8192x32000 main_cst_0
  let main_v6 : IVec S8192x32000 1 := cmpf .olt main_v4 main_v5
  let main_c_1 : IVec S_ 1 := constantI S_ 1 1#1
  let main_v7 : IVec S_ 1 := (fun x v => Host.reduce IntOp.andi x v reducesTo_S8192x32000_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 32000#32
  let main_v13 : IVec S8192 32 := broadcastInDim S8192 ![] bcast_S_S8192 main_c_4
  let main_v14 : IVec S8192 1 := cmpi .slt main_arg2 main_v13
  let main_c_5 : IVec S_ 1 := constantI S_ 1 1#1
  let main_v15 : IVec S_ 1 := (fun x v => Host.reduce IntOp.andi x v reducesTo_S8192_S_d0 h_S_) main_v14 main_c_5
  fn_part1 (F := F) main_v12 main_v15
-- ==== Kernel.lean ====
abbrev S8192x32000 : Shape := ⟨2, ![8192, 32000]⟩
abbrev S8192 : Shape := ⟨1, ![8192]⟩
abbrev S8192x1 : Shape := ⟨2, ![8192, 1]⟩
abbrev S1024x1280 : Shape := ⟨2, ![1024, 1280]⟩
abbrev S1024x1 : Shape := ⟨2, ![1024, 1]⟩
abbrev S1024 : Shape := ⟨1, ![1024]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 38
  | .vmem => 10
  | .smem => 0
  | _ => 0

abbrev bufTy : (tb : Table) → Fin (tcTables nBuf tb) → BufTy
  | .hbm, ⟨0, _⟩ => ⟨S8192x32000, .f32⟩
  | .hbm, ⟨1, _⟩ => ⟨S8192x32000, .f32⟩
  | .hbm, ⟨2, _⟩ => ⟨S8192, .i32⟩
  | .hbm, ⟨3, _⟩ => ⟨S8192x1, .i32⟩
  | .hbm, ⟨4, _⟩ => ⟨S8192x1, .f32⟩
  | .hbm, ⟨5, _⟩ => ⟨S8192x1, .f32⟩
  | .hbm, ⟨6, _⟩ => ⟨S_, .i32⟩
  | .hbm, ⟨7, _⟩ => ⟨S8192x1, .i32⟩
  | .hbm, ⟨8, _⟩ => ⟨S8192x1, .i1⟩
  | .hbm, ⟨9, _⟩ => ⟨S_, .i32⟩
  | .hbm, ⟨10, _⟩ => ⟨S8192x1, .i32⟩
  | .hbm, ⟨11, _⟩ => ⟨S8192x1, .i32⟩
  | .hbm, ⟨12, _⟩ => ⟨S8192x1, .i32⟩
  | .hbm, ⟨13, _⟩ => ⟨S8192x1x1, .i32⟩
  | .hbm, ⟨14, _⟩ => ⟨S1, .i32⟩
  | .hbm, ⟨15, _⟩ => ⟨S_, .i32⟩
  | .hbm, ⟨16, _⟩ => ⟨S8192x1x1, .i32⟩
  | .hbm, ⟨17, _⟩ => ⟨S8192x1x1, .i1⟩
  | .hbm, ⟨18, _⟩ => ⟨S1x1x1, .i32⟩
  | .hbm, ⟨19, _⟩ => ⟨S8192x1x1, .i32⟩
  | .hbm, ⟨20, _⟩ => ⟨S8192x1x1, .i1⟩
  | .hbm, ⟨21, _⟩ => ⟨S8192x1x1, .i1⟩
  | .hbm, ⟨22, _⟩ => ⟨S_, .i1⟩
  | .hbm, ⟨23, _⟩ => ⟨S8192x1, .i1⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1024x1280, .f32⟩
  | .local _ .vmem, ⟨1, _⟩ => ⟨S1024x1280, .f32⟩
  | .local _ .vmem, ⟨2, _⟩ => ⟨S1024x1, .i32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v42 : BitVec 1 := Scalar.cmpi .eq arg1 c24_i32
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1280_S1024x1280_0_0 : ∀ a, (![0, 0] : Fin 2 → Nat) a + S1024x1280.size a ≤ S1024x1280.size a
  h_S1024x1280 : 0 < S1024x1280.numel
  reduces_S1024x1280_S1024 : S1024x1280.Reduces [1] S1024
  shapeCasts_S1024_S1024x1 : S1024.ShapeCasts S1024x1
  broadcasts_S1024x1_S1024x1280 : S1024x1.Broadcasts S1024x1280
  iota_S1024x1280_d1_w32 : S1024x1280.Iotas .tc 32 [1]
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  reducesTo_S8192x1_S_d0_1 : S8192x1.ReducesTo [0, 1] S_
  gather_S8192x32000_S8192x1x1_S8192x1_n_1_0_0_1_2_11_wf : GatherDims.WF S8192x32000 S8192x1x1 S8192x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S8192x32000.size a
  hwx0_0 : ∀ i : grid0.Coords, EltTy.bits .f32 = 32 ∨ (Rect.block (s := S8192x32000) S1024x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

abbrev win0_0 : Pipeline.Window sig grid0 :=
  Pipeline.Window.ofSpec (Memref.whole main_arg0) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x2 : Shape := ⟨2, ![8192, 2]⟩

abbrev nBuf : Space → Nat
  | .hbm => 65
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192x32000, .f32⟩
  | .hbm, ⟨2, _⟩ => ⟨S8192, .i32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x32000, .f32⟩
  | .hbm, ⟨10, _⟩ => ⟨S8192x32000, .f32⟩
  | .hbm, ⟨11, _⟩ => ⟨S8192x32000, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S8192x32000, .f32⟩
  | .hbm, ⟨17, _⟩ => ⟨S8192x32000, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x1, .i32⟩
  | .hbm, ⟨35, _⟩ => ⟨S8192x2, .i32⟩
  | .hbm, ⟨36, _⟩ => ⟨S8192, .f32⟩
  | .hbm, ⟨37, _⟩ => ⟨S8192, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S8192x1, .i32⟩
  | .hbm, ⟨53, _⟩ => ⟨S8192x1, .i32⟩
  | .hbm, ⟨54, _⟩ => ⟨S8192x2, .i32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  concatenates_S8192x1_S8192x1_S8192x2_d1 : Shape.Concatenates [S8192x1, S8192x1] S8192x2 1
  reducesTo_S8192_S_d0 : S8192.ReducesTo [0] S_
  gather_S8192x32000_S8192x2_S8192_n_01_n_n_01_1_11_wf : GatherDims.WF S8192x32000 S8192x2 S8192 [] [0, 1] [] [0, 1] [] 1 ![1, 1]

variable [Facts₀]

def gather_S8192x32000_S8192x2_S8192_n_01_n_n_01_1_11 : GatherDims S8192x32000 S8192x2 S8192 where
  offsetDims := []
  collapsedSliceDims := [0, 1]
  operandBatchingDims := []
  startIndicesBatchingDims := []
  startIndexMap := [0, 1]
  indexVectorDim := 1
  sliceSizes := ![1, 1]
  wf := gather_S8192x32000_S8192x2_S8192_n_01_n_n_01_1_11_wf

class Facts : Prop extends Facts₀ where

variable [Facts]
-- ==== Proof.Spec.lean ====
/-
  The mathematics both programs compute, stated once over the extended reals.

  For a table of logits `L` (8192 rows of 32000 entries), a table of probabilities `B` of the same shape and one
  integer label per row, row `r` has the label column `col Y r`, the loss `logsumexp (L r) - L r (col Y r)` and the
  weight `1 - B r (col Y r)`; the result is the weighted mean of the losses, `(∑ w·loss) / (∑ w)`.
  The logsumexp is taken with the row's maximum shifted out: `M + log (∑ exp (L r j - M))`.
  Also here: the running quantities of a left-to-right scan of a row in tiles of 1280 columns (maximum so far, sum of
  shifted exponentials so far, the label's entry so far) and the laws by which one more tile updates them.
-/
import Idealize.ShloMosaic.PureOps.Ideal
import Idealize.ShloMosaic.Lib.ValueIdx

noncomputable section

namespace Cert.Reweight

open Idealize.ShloMosaic Idealize.ShloMosaic.ValueIdx

/-- The shape of the logits and of the probabilities. -/
abbrev SL : Shape := ⟨2, ![8192, 32000]⟩
/-- The shape of the labels. -/
abbrev SY : Shape := ⟨1, ![8192]⟩

/-- Every entry is a real number. -/
def Finite {s : Shape} (x : s.Idx → EReal) : Prop := ∀ i, x i ≠ ⊤ ∧ x i ≠ ⊥

/-- Every label, read as a signed integer, names a column. -/
def InRange (Y : IVec SY 32) : Prop := ∀ r : Fin 8192, 0 ≤ (Y (ix1 r)).toInt ∧ (Y (ix1 r)).toInt < 32000

/-- Row `r`'s label as a column (read signed, clamped into the table). -/
def col (Y : IVec SY 32) (r : Fin 8192) : Fin 32000 := ⟨min (Y (ix1 r)).toInt.toNat 31999, by omega⟩

/-- The largest entry of row `r`. -/
def rowMax (L : SL.Idx → EReal) (r : Fin 8192) : EReal := Finset.univ.sup fun j : Fin 32000 => L (ix2 r j)
/-- The sum of the row's exponentials, the maximum shifted out. -/
def rowSum (L : SL.Idx → EReal) (r : Fin 8192) : EReal := ∑ j : Fin 32000, Ideal.exp (L (ix2 r j) - rowMax L r)
/-- The row's logsumexp. -/
def lseRow (L : SL.Idx → EReal) (r : Fin 8192) : EReal := rowMax L r + Ideal.log (rowSum L r)
/-- The row's loss as "logsumexp minus the label's logit". -/
def lossK (L : SL.Idx → EReal) (Y : IVec SY 32) (r : Fin 8192) : EReal := lseRow L r - L (ix2 r (col Y r))
/-- The row's loss as "minus the label's log-softmax". -/
def lossR (L : SL.Idx → EReal) (Y : IVec SY 32) (r : Fin 8192) : EReal :=
  -((L (ix2 r (col Y r)) - rowMax L r) - Ideal.log (rowSum L r))
/-- The row's weight. -/
def weight (B : SL.Idx → EReal) (Y : IVec SY 32) (r : Fin 8192) : EReal :=
  Ideal.ofBits .f32 0x3F800000#32 - B (ix2 r (col Y r))
/-- The weighted mean of per-row losses (each sum taken from the zero word, as both programs take it). -/
def total (w loss : Fin 8192 → EReal) : EReal :=
  Ideal.div (Ideal.ofBits .f32 0x00000000#32 + ∑ r : Fin 8192, w r * loss r)
    (Ideal.ofBits .f32 0x00000000#32 + ∑ r : Fin 8192, w r)

/-! ## A row scanned in tiles of 1280 columns -/

/-- The columns seen after `n` tiles. -/
def seen (n : ℕ) : Finset (Fin 32000) := Finset.univ.filter fun j => j.val < 1280 * n

/-- Column `j` of tile `n`. -/
def tcol (n : ℕ) (hn : n < 25) (j : Fin 1280) : Fin 32000 := ⟨1280 * n + j.val, by omega⟩

/-- The maximum over the columns seen so far (`⊥` before the first tile). -/
def mAt (L : SL.Idx → EReal) (r : Fin 8192) (n : ℕ) : EReal := (seen n).sup fun j => L (ix2 r j)
/-- The sum of exponentials over the columns seen so far, shifted by the maximum so far. -/
def lAt (L : SL.Idx → EReal) (r : Fin 8192) (n : ℕ) : EReal := ∑ j ∈ seen n, Ideal.exp (L (ix2 r j) - mAt L r n)
/-- The entries, among the columns seen so far, whose column number is the label's word. -/
def aAt (L : SL.Idx → EReal) (Y : IVec SY 32) (r : Fin 8192) (n : ℕ) : EReal :=
  ∑ j ∈ seen n, if BitVec.ofNat 32 j.val = Y (ix1 r) then L (ix2 r j) else 0

end Cert.Reweight

end
-- ==== Proof.PreDecode.lean ====
/-
  What the precondition says of the three inputs: every logit and every probability is a real number, and every
  label, read as a signed integer, lies in [0, 32000).
-/
import proofs.«426821_j4329327035176_3_alg».proof.Pre_finite_inputs
import proofs.«426821_j4329327035176_3_alg».proof.Proof.Spec
import Idealize.ShloMosaic.Lib.ReduceAll
import Idealize.ShloMosaic.Lib.StableHlo.Predicate

noncomputable section

namespace Cert.Reweight

open Idealize.ShloMosaic Idealize.ShloMosaic.ValueIdx

namespace PreDecode

/-- The word 0x7F800000 denotes +∞. -/
theorem top_bits : Ideal.ofBits .f32 0x7F800000#32 = (⊤ : EReal) := by simp [Ideal.ofBits, Ideal.ieee]

/-- `|x| < +∞` says `x` is a real number. -/
theorem real_of_abs_lt (x : EReal) (h : Ideal.cmp .olt (max x (-x)) ⊤ = 1#1) : x ≠ ⊤ ∧ x ≠ ⊥ := by
  simp only [Ideal.cmp, StableHlo.Predicate.ofBool_eq_one_iff, decide_eq_true_eq] at h
  constructor
  · rintro rfl; simp at h
  · rintro rfl; simp at h

/-- `y ≥ 0` signed. -/
theorem nonneg_of_sge (y : BitVec 32) (h : IntOp.cmpi .sge y 0#32 = 1#1) : 0 ≤ y.toInt := by
  unfold IntOp.cmpi at h
  have h' : (0#32 : BitVec 32).toInt ≤ y.toInt := of_decide_eq_true ((StableHlo.Predicate.ofBool_eq_one_iff _).1 h)
  have z : (0#32 : BitVec 32).toInt = 0 := by decide
  omega

/-- `y < 32000` signed. -/
theorem lt_of_slt (y : BitVec 32) (h : IntOp.cmpi .slt y 32000#32 = 1#1) : y.toInt < 32000 := by
  unfold IntOp.cmpi at h
  have h' : y.toInt < (32000#32 : BitVec 32).toInt := of_decide_eq_true ((StableHlo.Predicate.ofBool_eq_one_iff _).1 h)
  have z : (32000#32 : BitVec 32).toInt = 32000 := by decide
  omega

end PreDecode

open PreDecode in
/-- The printed precondition, all ones, gives the three facts. -/
theorem pre_decode [Cert.Pre_finite_inputs.Facts] (L B : SL.Idx → EReal) (Y : IVec SY 32)
    (h : Cert.Pre_finite_inputs.fn (F := Ideal) L B Y = fun _ => 1#1) :
    Finite L ∧ Finite B ∧ InRange Y := by
  -- the rank-0 shape has one index
  haveI : Subsingleton Cert.Pre_finite_inputs.S_.Idx := ⟨fun _ _ => funext fun d => d.elim0⟩
  have h0 := congrFun h ValueIdx.ix0
  dsimp only [Cert.Pre_finite_inputs.fn, Cert.Pre_finite_inputs.fn_part1] at h0
  -- the four conjuncts, then each `all` read at an element
  obtain ⟨h123, h4⟩ := IntOp.andi_eq_one.1 h0
  obtain ⟨h12, h3⟩ := IntOp.andi_eq_one.1 h123
  obtain ⟨h1, h2⟩ := IntOp.andi_eq_one.1 h12
  have e1 := Host.reduce_andi_all _ _ _ _ _ h1
  have e2 := Host.reduce_andi_all _ _ _ _ _ h2
  have e3 := Host.reduce_andi_all _ _ _ _ _ h3
  have e4 := Host.reduce_andi_all _ _ _ _ _ h4
  refine ⟨fun i => ?_, fun i => ?_, fun r => ⟨?_, ?_⟩⟩
  · have t := e1 i
    simp only [cmpf, Host.absf, broadcastInDim, constant, Ideal.ofBits_def, top_bits] at t
    exact real_of_abs_lt _ t
  · have t := e2 i
    simp only [cmpf, Host.absf, broadcastInDim, constant, Ideal.ofBits_def, top_bits] at t
    exact real_of_abs_lt _ t
  · exact nonneg_of_sge _ (e3 (ix1 r))
  · exact lt_of_slt _ (e4 (ix1 r))

end Cert.Reweight

end
-- ==== Proof.SpecLaws.lean ====
/-
  The laws of the quantities of Spec.lean: the two spellings of a row's loss agree on real logits; a row's running
  maximum, running sum of shifted exponentials and running label entry start at ⊥, 0, 0, are updated by one more tile
  of 1280 columns as an online logsumexp updates them, and after the 25th tile are the row's own.
-/
import proofs.«426821_j4329327035176_3_alg».proof.Proof.Spec

noncomputable section

namespace Cert.Reweight

open Idealize.ShloMosaic Idealize.ShloMosaic.ValueIdx

/-! ## The columns seen: nothing, one more tile, everything -/

theorem seen_zero : seen 0 = ∅ := by
  unfold seen
  exact Finset.filter_false_of_mem fun j _ => by omega

theorem seen_last : seen 25 = Finset.univ := by
  unfold seen
  exact Finset.filter_true_of_mem fun j _ => by have := j.isLt; omega

theorem tcol_injective (n : ℕ) (hn : n < 25) : Function.Injective (tcol n hn) := by
  intro a b h
  have h' := congrArg Fin.val h
  simp only [tcol] at h'
  exact Fin.ext (by omega)

/-- The columns seen after one more tile: those seen before, and the tile's. -/
theorem seen_succ (n : ℕ) (hn : n < 25) :
    seen (n + 1) = seen n ∪ Finset.univ.image (tcol n hn) := by
  ext j
  simp only [seen, Finset.mem_union, Finset.mem_filter, Finset.mem_univ, true_and, Finset.mem_image]
  constructor
  · intro h
    by_cases h' : j.val < 1280 * n
    · exact Or.inl h'
    · right
      refine ⟨⟨j.val - 1280 * n, by omega⟩, ?_⟩
      apply Fin.ext
      simp only [tcol]
      omega
  · rintro (h | ⟨i, rfl⟩)
    · omega
    · have := i.isLt
      simp only [tcol]
      omega

theorem seen_disjoint (n : ℕ) (hn : n < 25) : Disjoint (seen n) (Finset.univ.image (tcol n hn)) := by
  rw [Finset.disjoint_left]
  intro j hj hj'
  simp only [seen, Finset.mem_filter, Finset.mem_univ, true_and] at hj
  obtain ⟨i, _, rfl⟩ := Finset.mem_image.mp hj'
  simp only [tcol] at hj
  omega

/-- A sum over the columns seen after one more tile splits. -/
theorem sum_seen_succ {α : Type} [AddCommMonoid α] (f : Fin 32000 → α) (n : ℕ) (hn : n < 25) :
    ∑ j ∈ seen (n + 1), f j = ∑ j ∈ seen n, f j + ∑ j : Fin 1280, f (tcol n hn j) := by
  rw [seen_succ n hn, Finset.sum_union (seen_disjoint n hn),
    Finset.sum_image fun a _ b _ h => tcol_injective n hn h]

/-- A maximum over the columns seen after one more tile splits. -/
theorem sup_seen_succ (f : Fin 32000 → EReal) (n : ℕ) (hn : n < 25) :
    (seen (n + 1)).sup f = max ((seen n).sup f) (Finset.univ.sup fun j : Fin 1280 => f (tcol n hn j)) := by
  rw [seen_succ n hn, Finset.sup_union, Finset.sup_image]
  rfl

/-! ## Real entries -/

/-- The coercion of a finite sum of reals is the sum of the coercions. -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of exponentials of real entries shifted by a real is a real. -/
theorem sum_exp_shift {ι : Type} (s : Finset ι) (l : ι → ℝ) (a : ℝ) :
    ∑ j ∈ s, Ideal.exp ((l j : EReal) - (a : EReal)) = ((∑ j ∈ s, Real.exp (l j - a) : ℝ) : EReal) := by
  rw [coe_sum_real]
  refine Finset.sum_congr rfl fun j _ => ?_
  rw [← EReal.coe_sub, Ideal.exp_coe]

/-- A row of real entries, as reals. -/
theorem row_real (L : SL.Idx → EReal) (hL : Finite L) (r : Fin 8192) :
    ∀ j : Fin 32000, L (ix2 r j) = (((L (ix2 r j)).toReal : ℝ) : EReal) :=
  fun j => (EReal.coe_toReal (hL _).1 (hL _).2).symm

/-- For a real maximum `M`, a real sum `S` and a real entry `x`: `(M + log S) - x = -((x - M) - log S)`, also when
    the logarithm is `⊥`. -/
theorem loss_forms (M S x : ℝ) :
    ((M : EReal) + Ideal.log (S : EReal)) - (x : EReal) = -(((x : EReal) - (M : EReal)) - Ideal.log (S : EReal)) := by
  rw [Ideal.log_coe]
  split_ifs
  · rw [EReal.add_bot, sub_eq_add_neg, EReal.bot_add, ← EReal.coe_sub, sub_eq_add_neg (_ : EReal) ⊥, EReal.neg_bot,
      EReal.coe_add_top, EReal.neg_top]
  · rw [← EReal.coe_add, ← EReal.coe_sub, ← EReal.coe_sub, ← EReal.coe_sub, ← EReal.coe_neg]
    refine congrArg Real.toEReal ?_
    ring

/-- On real logits the two spellings of the loss are one number. -/
theorem lossK_eq_lossR (L : SL.Idx → EReal) (hL : Finite L) (Y : IVec SY 32) (r : Fin 8192) :
    lossK L Y r = lossR L Y r := by
  obtain ⟨l, hLl⟩ : ∃ l : Fin 32000 → ℝ, ∀ j, L (ix2 r j) = (l j : EReal) := ⟨_, row_real L hL r⟩
  obtain ⟨j0, -, hj0⟩ := Finset.exists_mem_eq_sup Finset.univ ⟨(⟨0, by omega⟩ : Fin 32000), Finset.mem_univ _⟩
    (fun j : Fin 32000 => L (ix2 r j))
  have hM : rowMax L r = (l j0 : EReal) := by
    unfold rowMax
    rw [hj0, hLl]
  have hS : rowSum L r = ((∑ j, Real.exp (l j - l j0) : ℝ) : EReal) := by
    unfold rowSum
    rw [hM]
    simp only [hLl]
    exact sum_exp_shift _ _ _
  unfold lossK lossR lseRow
  rw [hS, hM, hLl (col Y r)]
  exact loss_forms _ _ _

theorem mAt_zero (L : SL.Idx → EReal) (r : Fin 8192) : mAt L r 0 = ⊥ := by
  unfold mAt
  rw [seen_zero, Finset.sup_empty]
theorem lAt_zero (L : SL.Idx → EReal) (r : Fin 8192) : lAt L r 0 = 0 := by
  unfold lAt
  rw [seen_zero, Finset.sum_empty]
theorem aAt_zero (L : SL.Idx → EReal) (Y : IVec SY 32) (r : Fin 8192) : aAt L Y r 0 = 0 := by
  unfold aAt
  rw [seen_zero, Finset.sum_empty]

/-- One more tile: the new maximum. -/
theorem mAt_succ (L : SL.Idx → EReal) (r : Fin 8192) (n : ℕ) (hn : n < 25) :
    max (mAt L r n) (Finset.univ.sup fun j : Fin 1280 => L (ix2 r (tcol n hn j))) = mAt L r (n + 1) := by
  unfold mAt
  exact (sup_seen_succ (fun j => L (ix2 r j)) n hn).symm

/-- One more tile: the old sum rescaled to the new maximum, plus the tile's exponentials. -/
theorem lAt_succ (L : SL.Idx → EReal) (hL : Finite L) (r : Fin 8192) (n : ℕ) (hn : n < 25) :
    lAt L r n * Ideal.exp (mAt L r n - mAt L r (n + 1))
      + ∑ j : Fin 1280, Ideal.exp (L (ix2 r (tcol n hn j)) - mAt L r (n + 1)) = lAt L r (n + 1) := by
  obtain ⟨l, hLl⟩ : ∃ l : Fin 32000 → ℝ, ∀ j, L (ix2 r j) = (l j : EReal) := ⟨_, row_real L hL r⟩
  have hsplit : lAt L r (n + 1) = ∑ j ∈ seen n, Ideal.exp (L (ix2 r j) - mAt L r (n + 1))
      + ∑ j : Fin 1280, Ideal.exp (L (ix2 r (tcol n hn j)) - mAt L r (n + 1)) :=
    sum_seen_succ (fun j => Ideal.exp (L (ix2 r j) - mAt L r (n + 1))) n hn
  rw [hsplit]
  refine congrArg (· + ∑ j : Fin 1280, Ideal.exp (L (ix2 r (tcol n hn j)) - mAt L r (n + 1))) ?_
  rcases (seen n).eq_empty_or_nonempty with he | hne
  · unfold lAt
    rw [he, Finset.sum_empty, Finset.sum_empty, zero_mul]
  · have hne' : (seen (n + 1)).Nonempty :=
      hne.mono (by rw [seen_succ n hn]; exact Finset.subset_union_left)
    obtain ⟨j1, -, h1⟩ := Finset.exists_mem_eq_sup (seen n) hne (fun j => L (ix2 r j))
    obtain ⟨j2, -, h2⟩ := Finset.exists_mem_eq_sup (seen (n + 1)) hne' (fun j => L (ix2 r j))
    have hm : mAt L r n = (l j1 : EReal) := by
      unfold mAt
      rw [h1, hLl]
    have hm' : mAt L r (n + 1) = (l j2 : EReal) := by
      unfold mAt
      rw [h2, hLl]
    unfold lAt
    rw [hm, hm']
    simp only [hLl]
    rw [sum_exp_shift, sum_exp_shift, ← EReal.coe_sub, Ideal.exp_coe, ← EReal.coe_mul, Finset.sum_mul]
    refine congrArg Real.toEReal (Finset.sum_congr rfl fun j _ => ?_)
    rw [← Real.exp_add]
    refine congrArg Real.exp ?_
    ring

/-- One more tile: the tile's entries at the label's column number join the sum. -/
theorem aAt_succ (L : SL.Idx → EReal) (Y : IVec SY 32) (r : Fin 8192) (n : ℕ) (hn : n < 25) :
    aAt L Y r n + ∑ j : Fin 1280,
        (if BitVec.ofNat 32 (1280 * n + j.val) = Y (ix1 r) then L (ix2 r (tcol n hn j)) else 0) = aAt L Y r (n + 1) := by
  unfold aAt
  exact (sum_seen_succ (fun j => if BitVec.ofNat 32 j.val = Y (ix1 r) then L (ix2 r j) else 0) n hn).symm

/-- After all 25 tiles the running quantities are the row's. -/
theorem mAt_last (L : SL.Idx → EReal) (r : Fin 8192) : mAt L r 25 = rowMax L r := by
  unfold mAt rowMax
  rw [seen_last]
theorem lAt_last (L : SL.Idx → EReal) (r : Fin 8192) : lAt L r 25 = rowSum L r := by
  unfold lAt rowSum mAt rowMax
  rw [seen_last]

/-- A word that reads, signed, as a column number is the word of exactly that column. -/
theorem ofNat_eq_iff (y : BitVec 32) (h0 : 0 ≤ y.toInt) (h1 : y.toInt < 32000) (j : Fin 32000) :
    BitVec.ofNat 32 j.val = y ↔ j.val = min y.toInt.toNat 31999 := by
  have hy := BitVec.toInt_eq_toNat_cond y
  have hlt := y.isLt
  have hj := j.isLt
  have hnat : y.toInt = (y.toNat : ℤ) := by
    split_ifs at hy with hc
    · exact hy
    · omega
  constructor
  · intro h
    have h' := congrArg BitVec.toNat h
    rw [BitVec.toNat_ofNat, Nat.mod_eq_of_lt (by omega)] at h'
    omega
  · intro h
    apply BitVec.eq_of_toNat_eq
    rw [BitVec.toNat_ofNat, Nat.mod_eq_of_lt (by omega)]
    omega

/-- With the label a column number, exactly one column matches its word: the sum is that entry. -/
theorem aAt_last (L : SL.Idx → EReal) (Y : IVec SY 32) (hY : InRange Y) (r : Fin 8192) :
    aAt L Y r 25 = L (ix2 r (col Y r)) := by
  have hiff := ofNat_eq_iff (Y (ix1 r)) (hY r).1 (hY r).2
  unfold aAt
  rw [seen_last, Finset.sum_eq_single (col Y r)]
  · rw [if_pos]
    exact (hiff (col Y r)).mpr rfl
  · intro j _ hj
    rw [if_neg]
    intro h
    exact hj (Fin.ext ((hiff j).mp h))
  · intro h
    exact absurd (Finset.mem_univ _) h

end Cert.Reweight

end
-- ==== Proof.Pieces.lean ====
import proofs.«426821_j4329327035176_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What one run of the kernel body leaves in the three carried columns and, at a row block's last tile, in the two
    output blocks: each is the body's arithmetic of the block it loaded and of the columns' previous contents (at a row
    block's first tile: of the reset values). -/

namespace Cert.Reweight.Pieces

open Cert.KernelIdeal Cert.KernelIdeal.Gen

variable {F : FTy → Type} [FloatOps F]

theorem hz : (![0, 0] : Fin 2 → Nat) = fun _ => 0 := funext fun a => by fin_cases a <;> rfl

/-- At a row block's first tile the running maximum is reset to −∞ and then updated by the tile. -/
theorem first_max (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1280 .f32) (x1 : Vec F S1024x1 .i32) :
    sout0_A_0 c i arg2 harg2 arg3 harg3 arg4 harg4 arg5 harg5 arg6 harg6 arg7 harg7 arg8 harg8 hc0 hc1 x0 x1 = k0_pay8 x0 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

/-- At a row block's first tile the running sum is reset to 0 and then updated by the tile. -/
theorem first_sum (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1280 .f32) (x1 : Vec F S1024x1 .i32) :
    sout0_A_1 c i arg2 harg2 arg3 harg3 arg4 harg4 arg5 harg5 arg6 harg6 arg7 harg7 arg8 harg8 hc0 hc1 x0 x1 = k0_pay7 x0 k0_pay3 k0_pay3 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

/-- At a row block's first tile the running label entry is reset to 0 and then updated by the tile. -/
theorem first_lab (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1280 .f32) (x1 : Vec F S1024x1 .i32) :
    sout0_A_2 c i arg2 harg2 arg3 harg3 arg4 harg4 arg5 harg5 arg6 harg6 arg7 harg7 arg8 harg8 hc0 hc1 x0 x1 = k0_pay1 x0 (k0_pay9 i x1) k0_pay5 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

/-- At a middle tile the running maximum is updated from what the tile before left. -/
theorem mid_max (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1280 .f32) (x1 : Vec F S1024x1 .i32) (xs0 xs1 xs2 : Vec F S1024x1 .f32) :
    sout0_B_0 c i arg2 harg2 arg3 harg3 arg4 harg4 arg5 harg5 arg6 harg6 arg7 harg7 arg8 harg8 hc0 hc1 x0 x1 xs0 xs1 xs2 = k0_pay8 x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2)]
  unfold kernelRun0_B
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

/-- At a middle tile the running sum is updated from what the tile before left. -/
theorem mid_sum (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1280 .f32) (x1 : Vec F S1024x1 .i32) (xs0 xs1 xs2 : Vec F S1024x1 .f32) :
    sout0_B_1 c i arg2 harg2 arg3 harg3 arg4 harg4 arg5 harg5 arg6 harg6 arg7 harg7 arg8 harg8 hc0 hc1 x0 x1 xs0 xs1 xs2 = k0_pay7 x0 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2)]
  unfold kernelRun0_B
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

/-- At a middle tile the running label entry is updated from what the tile before left. -/
theorem mid_lab (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1280 .f32) (x1 : Vec F S1024x1 .i32) (xs0 xs1 xs2 : Vec F S1024x1 .f32) :
    sout0_B_2 c i arg2 harg2 arg3 harg3 arg4 harg4 arg5 harg5 arg6 harg6 arg7 harg7 arg8 harg8 hc0 hc1 x0 x1 xs0 xs1 xs2 = k0_pay1 x0 (k0_pay9 i x1) xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2)]
  unfold kernelRun0_B
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

/-- At the last tile the running maximum is updated as at a middle tile. -/
theorem last_max (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1280 .f32) (x1 : Vec F S1024x1 .i32) (xs0 xs1 xs2 : Vec F S1024x1 .f32) :
    sout0_C_0 c i arg2 harg2 arg3 harg3 arg4 harg4 arg5 harg5 arg6 harg6 arg7 harg7 arg8 harg8 hc0 hc1 x0 x1 xs0 xs1 xs2 = k0_pay8 x0 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2)]
  unfold kernelRun0_C
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

/-- At the last tile the running sum is updated as at a middle tile. -/
theorem last_sum (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1280 .f32) (x1 : Vec F S1024x1 .i32) (xs0 xs1 xs2 : Vec F S1024x1 .f32) :
    sout0_C_1 c i arg2 harg2 arg3 harg3 arg4 harg4 arg5 harg5 arg6 harg6 arg7 harg7 arg8 harg8 hc0 hc1 x0 x1 xs0 xs1 xs2 = k0_pay7 x0 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2)]
  unfold kernelRun0_C
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

/-- At the last tile the running label entry is updated as at a middle tile. -/
theorem last_lab (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1280 .f32) (x1 : Vec F S1024x1 .i32) (xs0 xs1 xs2 : Vec F S1024x1 .f32) :
    sout0_C_2 c i arg2 harg2 arg3 harg3 arg4 harg4 arg5 harg5 arg6 harg6 arg7 harg7 arg8 harg8 hc0 hc1 x0 x1 xs0 xs1 xs2 = k0_pay1 x0 (k0_pay9 i x1) xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2)]
  unfold kernelRun0_C
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

/-- At the last tile the first output block is the final maximum plus the logarithm of the final sum. -/
theorem last_lse (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1280 .f32) (x1 : Vec F S1024x1 .i32) (xs0 xs1 xs2 : Vec F S1024x1 .f32) :
    out0_C_2 c i arg2 harg2 arg3 harg3 arg4 harg4 arg5 harg5 arg6 harg6 arg7 harg7 arg8 harg8 hc0 hc1 x0 x1 xs0 xs1 xs2 = k0_pay2 (k0_pay8 x0 xs0) (k0_pay7 x0 xs0 xs0 xs1) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2)]
  unfold kernelRun0_C
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

/-- At the last tile the second output block is the final label entry. -/
theorem last_out (c : Dev nD) (i : grid0.Coords) (arg2 : Memref sig .tc .vmem S1024x1280 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1280 .f32) (x1 : Vec F S1024x1 .i32) (xs0 xs1 xs2 : Vec F S1024x1 .f32) :
    out0_C_3 c i arg2 harg2 arg3 harg3 arg4 harg4 arg5 harg5 arg6 harg6 arg7 harg7 arg8 harg8 hc0 hc1 x0 x1 xs0 xs1 xs2 = k0_pay1 x0 (k0_pay9 i x1) xs2 := by
  unfold out0_C_3
  rw [View.read_writes_eq_canon _ _ _ (cover0_C_3 c i arg2 harg2 arg3 harg3 arg4 harg4 arg5 harg5 arg6 harg6 arg7 harg7 arg8 harg8 hc0 hc1 x0 x1 xs0 xs1 xs2)]
  unfold kernelRun0_C
  dsimp only
  sl_unfold_words
  first
    | rw [View.canon_unit_zero hz]
    | rw [View.canon_cons_unit_zero (S := S1024x1) hz]
  simp only [View.readAt_eq_ld, harg2.read_unread, harg3.read_unread, harg6.read_unread, harg7.read_unread, harg8.read_unread, View.ld_unit_zero (S := S1024x1280) hz, View.ld_unit_zero (S := S1024x1) hz, View.readCov_unit_zero (S := S1024x1) _ hz]

end Cert.Reweight.Pieces

end
-- ==== Proof.KernelPay.lean ====
/-
  The kernel body's arithmetic read at one row of a block, over the extended reals.

  A block is 1024 rows of 1280 logits; the three carried columns hold, per row, the running maximum, the running sum
  of exponentials shifted by that maximum, and the running label entry. One step of the body updates them as an online
  logsumexp does; the last step of a row block also writes "maximum + log (sum)".
-/
import proofs.«426821_j4329327035176_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Reweight.Pay

open Idealize.ShloMosaic Idealize.ShloMosaic.ValueIdx Cert.KernelIdeal Cert.KernelIdeal.Gen

/-! ## Layout steps and lane reductions at one row -/

section Layout
variable {α : Type}

/-- A length-`a` vector viewed as an `a × 1` column reads, at row `i`, the vector's entry `i`: both have row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over `b` columns reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Row `p` of the reduced vector with column `k` put back is the block index `(p, k)`. -/
theorem lift_eq (p : Fin 1024) (k : Fin 1280) :
    reduces_S1024x1280_S1024.lift (ix1 p) k = ix2 p k := by
  funext c
  match c with
  | ⟨0, _⟩ => rfl
  | ⟨1, _⟩ => rfl

/-- The sum along the columns, at row `p`, is the sum of the row's 1280 entries. -/
theorem laneSum_apply (v : FVec Ideal S1024x1280 .f32) (hφ : FKind.Formats .f32)
    (hacc : (0x00000000#32 : BitVec 32) = FKind.add.neutral .f32 hφ) (p : Fin 1024) :
    multiReduction .add [1] S1024 v 0x00000000#32 reduces_S1024x1280_S1024 hφ hacc (ix1 p)
      = ∑ k : Fin 1280, v (ix2 p k) := by
  refine (Ideal.multiReduction_add_single v 0x00000000#32 reduces_S1024x1280_S1024 hφ hacc (ix1 p)).trans ?_
  exact Finset.sum_congr rfl fun k _ => congrArg v (lift_eq p k)

/-- The word of negative infinity denotes the bottom of the extended reals. -/
theorem ofBits_negInf : Ideal.ofBits .f32 0xFF800000#32 = (⊥ : EReal) := by simp [Ideal.ofBits, Ideal.ieee]

/-- The maximum along the columns, at row `p`, is the supremum of the row's 1280 entries: a fold of `max` from −∞. -/
theorem laneMax_apply (v : FVec Ideal S1024x1280 .f32) (hφ : FKind.Formats .f32)
    (hacc : (0xFF800000#32 : BitVec 32) = FKind.maximumf.neutral .f32 hφ) (p : Fin 1024) :
    multiReduction .maximumf [1] S1024 v 0xFF800000#32 reduces_S1024x1280_S1024 hφ hacc (ix1 p)
      = Finset.univ.sup fun k : Fin 1280 => v (ix2 p k) := by
  refine (Ideal.multiReduction_maximumf_single v 0xFF800000#32 reduces_S1024x1280_S1024 hφ hacc (ix1 p)).trans ?_
  have hf : (v ∘ reduces_S1024x1280_S1024.lift (ix1 p)) = fun k : Fin 1280 => v (ix2 p k) :=
    funext fun k => congrArg v (lift_eq p k)
  rw [hf]
  show Finset.fold max (Ideal.ofBits .f32 0xFF800000#32) (fun k : Fin 1280 => v (ix2 p k)) Finset.univ = _
  rw [ofBits_negInf]
  rfl

/-! ## The resets -/

/-- The reset of the running maximum is −∞ in every row. -/
theorem pay3_apply (y : S1024x1.Idx) : k0_pay3 (F := Ideal) y = ⊥ := by
  unfold k0_pay3
  show shapeCast S1024x1 (broadcast S1024x1 (Ideal.ofBits .f32 0xFF800000#32)) shapeCasts_S1024x1_S1024x1 y = ⊥
  rw [shapeCast_self]
  exact ofBits_negInf

/-- The reset of the running sum is 0 in every row. -/
theorem pay4_apply (y : S1024x1.Idx) : k0_pay4 (F := Ideal) y = 0 := by
  unfold k0_pay4
  show shapeCast S1024x1 (broadcast S1024x1 (Ideal.ofBits .f32 0x00000000#32)) shapeCasts_S1024x1_S1024x1 y = 0
  rw [shapeCast_self]
  exact Ideal.ofBits_zero_f32

/-- The reset of the running label entry is 0 in every row. -/
theorem pay5_apply (y : S1024x1.Idx) : k0_pay5 (F := Ideal) y = 0 := by
  unfold k0_pay5
  show shapeCast S1024x1 (broadcast S1024x1 (Ideal.ofBits .f32 0x00000000#32)) shapeCasts_S1024x1_S1024x1 y = 0
  rw [shapeCast_self]
  exact Ideal.ofBits_zero_f32

/-! ## The running maximum -/

/-- The maximum of the old running maximum and the block row's largest entry, at row `p`. -/
theorem pay6_apply (x0 : Vec Ideal S1024x1280 .f32) (mm : Vec Ideal S1024x1 .f32) (p : Fin 1024) :
    k0_pay6 (F := Ideal) x0 mm (ix2 p (0 : Fin 1))
      = max (mm (ix2 p (0 : Fin 1))) (Finset.univ.sup fun j : Fin 1280 => x0 (ix2 p j)) := by
  unfold k0_pay6
  refine congrArg (max (mm (ix2 p (0 : Fin 1)))) ?_
  refine (shapeCast_a_a1_apply _ shapeCasts_S1024_S1024x1 p (0 : Fin 1)).trans ?_
  exact laneMax_apply x0 _ _ p

/-- The new running maximum of row `p`: the old one against the block row's largest entry. -/
theorem pay8_apply (x0 : Vec Ideal S1024x1280 .f32) (mm : Vec Ideal S1024x1 .f32) (p : Fin 1024) :
    k0_pay8 (F := Ideal) x0 mm (ix2 p (0 : Fin 1))
      = max (mm (ix2 p (0 : Fin 1))) (Finset.univ.sup fun j : Fin 1280 => x0 (ix2 p j)) := by
  unfold k0_pay8
  rw [shapeCast_self]
  exact pay6_apply x0 mm p

/-! ## The running sum -/

/-- The update of the running sum against ANY column `M` of new maxima: the old sum times `exp (old maximum − M)`, plus
    the row's exponentials shifted by `M`. -/
theorem pay7_aux (x0 : FVec Ideal S1024x1280 .f32) (M mm ll : FVec Ideal S1024x1 .f32) (p : Fin 1024) :
    shapeCast S1024x1
        (addf (mulf ll (exp (subf mm M)))
          (shapeCast S1024x1
            (multiReduction .add [1] S1024
              (exp (subf x0 (broadcastTo S1024x1280 M broadcasts_S1024x1_S1024x1280)))
              0x00000000#32 reduces_S1024x1280_S1024 (.inl rfl) rfl)
            shapeCasts_S1024_S1024x1))
        shapeCasts_S1024x1_S1024x1 (ix2 p (0 : Fin 1))
      = ll (ix2 p (0 : Fin 1)) * Ideal.exp (mm (ix2 p (0 : Fin 1)) - M (ix2 p (0 : Fin 1)))
        + ∑ j : Fin 1280, Ideal.exp (x0 (ix2 p j) - M (ix2 p (0 : Fin 1))) := by
  rw [shapeCast_self]
  refine congrArg (ll (ix2 p (0 : Fin 1)) * Ideal.exp (mm (ix2 p (0 : Fin 1)) - M (ix2 p (0 : Fin 1))) + ·) ?_
  refine (shapeCast_a_a1_apply _ shapeCasts_S1024_S1024x1 p (0 : Fin 1)).trans ?_
  refine (laneSum_apply _ _ _ p).trans ?_
  refine Finset.sum_congr rfl fun j _ => ?_
  show Ideal.exp (x0 (ix2 p j) - broadcastTo S1024x1280 M broadcasts_S1024x1_S1024x1280 (ix2 p j)) = _
  rw [broadcastTo_a1_ab_apply]

/-- The new running sum of row `p`: the old sum rescaled from the old maximum to the new, plus the block row's
    exponentials shifted by the new maximum. -/
theorem pay7_apply (x0 : Vec Ideal S1024x1280 .f32) (mm ll : Vec Ideal S1024x1 .f32) (p : Fin 1024) :
    k0_pay7 (F := Ideal) x0 mm mm ll (ix2 p (0 : Fin 1))
      = ll (ix2 p (0 : Fin 1))
          * Ideal.exp (mm (ix2 p (0 : Fin 1))
              - max (mm (ix2 p (0 : Fin 1))) (Finset.univ.sup fun j : Fin 1280 => x0 (ix2 p j)))
        + ∑ j : Fin 1280, Ideal.exp (x0 (ix2 p j)
              - max (mm (ix2 p (0 : Fin 1))) (Finset.univ.sup fun j : Fin 1280 => x0 (ix2 p j))) := by
  refine (pay7_aux x0 (k0_pay6 (F := Ideal) x0 mm) mm ll p).trans ?_
  rw [pay6_apply]

/-! ## The running label entry -/

/-- The label mask at `(p, j)`: one exactly when the global column number 1280 · (tile number) + j, as a 32-bit word,
    is row `p`'s label word. The word arithmetic is that of the naturals modulo 2³². -/
theorem mask_apply (i : grid0.Coords) (x1 : Vec Ideal S1024x1 .i32) (p : Fin 1024) (j : Fin 1280) :
    k0_pay9 (F := Ideal) i x1 (ix2 p j)
      = if BitVec.ofNat 32 (1280 * (i 1).val + j.val) = x1 (ix2 p (0 : Fin 1)) then 1#1 else 0#1 := by
  unfold k0_pay9
  show IntOp.cmpi .eq
      (IntOp.addi (Scalar.muli (BitVec.ofNat 32 (i 1).val) 1280#32)
        (iota .tc S1024x1280 32 [1] iota_S1024x1280_d1_w32 (ix2 p j)))
      (broadcastTo S1024x1280 (shapeCast S1024x1 x1 shapeCasts_S1024x1_S1024x1) broadcasts_S1024x1_S1024x1280
        (ix2 p j)) = _
  rw [broadcastTo_a1_ab_apply, shapeCast_self, iota_single_apply]
  show IntOp.cmpi .eq (BitVec.ofNat 32 (i 1).val * 1280#32 + BitVec.ofNat 32 j.val) (x1 (ix2 p (0 : Fin 1))) = _
  have h : BitVec.ofNat 32 (i 1).val * 1280#32 + BitVec.ofNat 32 j.val
      = BitVec.ofNat 32 (1280 * (i 1).val + j.val) := by
    rw [Nat.mul_comm, BitVec.ofNat_add, BitVec.ofNat_mul]
  rw [h]
  unfold IntOp.cmpi
  by_cases hc : BitVec.ofNat 32 (1280 * (i 1).val + j.val) = x1 (ix2 p (0 : Fin 1))
  · rw [if_pos hc, beq_iff_eq.mpr hc]; rfl
  · rw [if_neg hc, beq_eq_false_iff_ne.mpr hc]; rfl

/-- The update of the running label entry against ANY mask: the old entry plus the row's entries where the mask is one. -/
theorem pay1_aux (x0 : Vec Ideal S1024x1280 .f32) (m : IVec S1024x1280 1) (aa : Vec Ideal S1024x1 .f32) (p : Fin 1024) :
    k0_pay1 (F := Ideal) x0 m aa (ix2 p (0 : Fin 1))
      = aa (ix2 p (0 : Fin 1)) + ∑ j : Fin 1280, Scalar.select (m (ix2 p j)) (x0 (ix2 p j)) (0 : EReal) := by
  unfold k0_pay1
  rw [shapeCast_self]
  refine congrArg (aa (ix2 p (0 : Fin 1)) + ·) ?_
  refine (shapeCast_a_a1_apply _ shapeCasts_S1024_S1024x1 p (0 : Fin 1)).trans ?_
  refine (laneSum_apply _ _ _ p).trans ?_
  refine Finset.sum_congr rfl fun j _ => ?_
  show Scalar.select (m (ix2 p j)) (x0 (ix2 p j)) (Ideal.ofBits .f32 0x00000000#32) = _
  rw [Ideal.ofBits_zero_f32]

/-- The new running label entry of row `p` at grid point `i`: the old one plus the block row's entries whose global
    column number (1280 · the tile's number + the column in the block), as a 32-bit word, is the row's label word. -/
theorem pay1_apply (i : grid0.Coords) (x0 : Vec Ideal S1024x1280 .f32) (x1 : Vec Ideal S1024x1 .i32)
    (aa : Vec Ideal S1024x1 .f32) (p : Fin 1024) :
    k0_pay1 (F := Ideal) x0 (k0_pay9 (F := Ideal) i x1) aa (ix2 p (0 : Fin 1))
      = aa (ix2 p (0 : Fin 1))
        + ∑ j : Fin 1280, (if BitVec.ofNat 32 (1280 * (i 1).val + j.val) = x1 (ix2 p (0 : Fin 1)) then x0 (ix2 p j) else 0) := by
  refine (pay1_aux x0 _ aa p).trans ?_
  refine congrArg (aa (ix2 p (0 : Fin 1)) + ·) (Finset.sum_congr rfl fun j _ => ?_)
  rw [mask_apply]
  by_cases hc : BitVec.ofNat 32 (1280 * (i 1).val + j.val) = x1 (ix2 p (0 : Fin 1))
  · rw [if_pos hc, if_pos hc]; exact select_one _ _
  · rw [if_neg hc, if_neg hc]; exact select_zero _ _

/-! ## The write-out -/

/-- What the last step writes out for row `p`: the maximum plus the logarithm of the sum. -/
theorem pay2_apply (mm ll : Vec Ideal S1024x1 .f32) (p : Fin 1024) :
    k0_pay2 (F := Ideal) mm ll (ix2 p (0 : Fin 1)) = mm (ix2 p (0 : Fin 1)) + Ideal.log (ll (ix2 p (0 : Fin 1))) := by
  rfl

end Cert.Reweight.Pay

end
-- ==== Proof.Step.lean ====
/-
  One run of the kernel body as one step of the online logsumexp of a row.

  If, for a row `r`, the three carried columns hold the running maximum, the running sum of exponentials and the
  running label entry over the first `k` tiles, and the block the body loaded is tile `k` of that row, then what the
  body stores is the same three quantities over the first `k + 1` tiles.
-/
import proofs.«426821_j4329327035176_3_alg».proof.Proof.KernelPay
import proofs.«426821_j4329327035176_3_alg».proof.Proof.SpecLaws

noncomputable section

namespace Cert.Reweight.Step

open Idealize.ShloMosaic Idealize.ShloMosaic.ValueIdx Cert.KernelIdeal Cert.KernelIdeal.Gen Cert.Reweight

/-- The new maximum. -/
theorem next_max (L : SL.Idx → EReal) (r : Fin 8192) (k : ℕ) (hk : k < 25) (p : Fin 1024)
    (x0 : Vec Ideal S1024x1280 .f32) (mm : Vec Ideal S1024x1 .f32)
    (hx : ∀ j : Fin 1280, x0 (ix2 p j) = L (ix2 r (tcol k hk j)))
    (hm : mm (ix2 p (0 : Fin 1)) = mAt L r k) :
    k0_pay8 (F := Ideal) x0 mm (ix2 p (0 : Fin 1)) = mAt L r (k + 1) := by
  rw [Pay.pay8_apply, hm, ← mAt_succ L r k hk]
  congr 2
  funext j
  exact hx j

/-- The new sum. -/
theorem next_sum (L : SL.Idx → EReal) (hL : Finite L) (r : Fin 8192) (k : ℕ) (hk : k < 25) (p : Fin 1024)
    (x0 : Vec Ideal S1024x1280 .f32) (mm ll : Vec Ideal S1024x1 .f32)
    (hx : ∀ j : Fin 1280, x0 (ix2 p j) = L (ix2 r (tcol k hk j)))
    (hm : mm (ix2 p (0 : Fin 1)) = mAt L r k) (hl : ll (ix2 p (0 : Fin 1)) = lAt L r k) :
    k0_pay7 (F := Ideal) x0 mm mm ll (ix2 p (0 : Fin 1)) = lAt L r (k + 1) := by
  have hsup : (Finset.univ.sup fun j : Fin 1280 => x0 (ix2 p j))
      = Finset.univ.sup fun j : Fin 1280 => L (ix2 r (tcol k hk j)) := by
    congr 1; funext j; exact hx j
  rw [Pay.pay7_apply, hm, hl, hsup, mAt_succ L r k hk, ← lAt_succ L hL r k hk]
  congr 2
  funext j
  rw [hx j]

/-- The new label entry. -/
theorem next_lab (L : SL.Idx → EReal) (Y : IVec SY 32) (r : Fin 8192) (k : ℕ) (hk : k < 25) (p : Fin 1024)
    (i : grid0.Coords) (hi : (i 1).val = k)
    (x0 : Vec Ideal S1024x1280 .f32) (x1 : Vec Ideal S1024x1 .i32) (aa : Vec Ideal S1024x1 .f32)
    (hx : ∀ j : Fin 1280, x0 (ix2 p j) = L (ix2 r (tcol k hk j)))
    (hy : x1 (ix2 p (0 : Fin 1)) = Y (ix1 r))
    (ha : aa (ix2 p (0 : Fin 1)) = aAt L Y r k) :
    k0_pay1 (F := Ideal) x0 (k0_pay9 (F := Ideal) i x1) aa (ix2 p (0 : Fin 1)) = aAt L Y r (k + 1) := by
  rw [Pay.pay1_apply, ha, hy, hi, ← aAt_succ L Y r k hk]
  congr 2
  funext j
  rw [hx j]

end Cert.Reweight.Step

end
-- ==== Proof.Blocks.lean ====
/-
  Where the blocks of the kernel's two inputs sit in their arrays.

  The grid has 8 row blocks of 25 tiles; point `t` is row block `t / 25`, tile `t % 25`. Its logits block is rows
  `1024 (t / 25) + p`, columns `1280 (t % 25) + j` of the logits; its labels block is the same rows of the labels,
  which the host program first reshapes from a vector to a column.
-/
import proofs.«426821_j4329327035176_3_alg».proof.Proof.Gen.KernelIdeal.Frame
import proofs.«426821_j4329327035176_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.Reweight.Blocks

open Cert.KernelIdeal Cert.KernelIdeal.Gen

variable {F : FTy → Type} [FloatOps F]
variable (m : (ℓ : Loc nD τ sig) → Buf (Elt F) ℓ)

/-- The logits as the kernel's program holds them. -/
abbrev logits (c : Dev nD) : Vec F S8192x32000 .f32 := m ((c : Thread nD τ).loc main_arg0)
/-- The labels as the kernel's program holds them. -/
abbrev labels (c : Dev nD) : Vec F S8192 .i32 := m ((c : Thread nD τ).loc main_arg2)
/-- The logits block of point `t`. -/
abbrev xblk (c : Dev nD) (t : Fin cfg0.N) : Vec F S1024x1280 .f32 := iblk m c 0 t
/-- The labels block of point `t`. -/
abbrev yblk (c : Dev nD) (t : Fin cfg0.N) : Vec F S1024x1 .i32 := iblk m c 1 t

/-- A point's row block and tile, and each window's block index there. -/
theorem index_facts : ∀ t : Fin cfg0.N,
    win0_0.index t (0 : Fin 2) = t.val / 25 ∧ win0_0.index t (1 : Fin 2) = t.val % 25
    ∧ win0_1.index t (0 : Fin 2) = t.val / 25 ∧ win0_1.index t (1 : Fin 2) = 0
    ∧ win0_2.index t (0 : Fin 2) = t.val / 25 ∧ win0_2.index t (1 : Fin 2) = 0
    ∧ win0_3.index t (0 : Fin 2) = t.val / 25 ∧ win0_3.index t (1 : Fin 2) = 0 :=
  (by decide +kernel : ∀ t : Fin grid0.N, _)

/-- Row `p` of row block `b`. -/
def row (b : ℕ) (hb : b < 8) (p : Fin 1024) : Fin 8192 := ⟨1024 * b + p.val, by omega⟩

theorem div_lt (t : Fin cfg0.N) : t.val / 25 < 8 := by
  have : cfg0.N = 200 := N_0
  have := t.isLt
  omega

theorem mod_lt (t : Fin cfg0.N) : t.val % 25 < 25 := Nat.mod_lt _ (by decide)

/-- A vector cast to a column reads, at `(i, u)`, the vector at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column labels the region finds are the label vector, row by row. -/
theorem V_labels (c : Dev nD) (r : Fin 8192) :
    (V m c main_v0 : Vec F S8192x1 .i32) (ix2 r (0 : Fin 1)) = labels m c (ix1 r) := by
  have e : (V m c main_v0 : S8192x1.Idx → Elt F .i32)
      = shapeCast S8192x1 (labels m c) shapeCasts_S8192_S8192x1 := by
    show StableHlo.after hostOps0 (fun b => m (c, b)) (Proc.devRef .tc main_v0) = _
    after_results
    rfl
  rw [e]
  exact shapeCast_a_a1_apply (labels m c) shapeCasts_S8192_S8192x1 r 0

/-- The logits block of point `t` read at row `p`, column `j`. -/
theorem xblk_apply (c : Dev nD) (t : Fin cfg0.N) (p : Fin 1024) (j : Fin 1280) :
    xblk m c t (ix2 p j) = logits m c (ix2 (row (t.val / 25) (div_lt t) p) (Cert.Reweight.tcol (t.val % 25) (mod_lt t) j)) := by
  unfold xblk iblk
  rw [View.read_apply]
  show V m c main_arg0 _ = _
  rw [V_main_arg0]
  congr 1
  funext a
  apply Fin.ext
  match a with
  | ⟨0, _⟩ =>
    show win0_0.index t 0 * 1024 + 1 * p.val = 1024 * (t.val / 25) + p.val
    rw [(index_facts t).1]; omega
  | ⟨1, _⟩ =>
    show win0_0.index t 1 * 1280 + 1 * j.val = 1280 * (t.val % 25) + j.val
    rw [(index_facts t).2.1]; omega

/-- The labels block of point `t` read at row `p`. -/
theorem yblk_apply (c : Dev nD) (t : Fin cfg0.N) (p : Fin 1024) :
    yblk m c t (ix2 p (0 : Fin 1)) = labels m c (ix1 (row (t.val / 25) (div_lt t) p)) := by
  rw [← V_labels m c (row (t.val / 25) (div_lt t) p)]
  unfold yblk iblk
  rw [View.read_apply]
  show V m c main_v0 _ = _
  congr 1
  funext a
  apply Fin.ext
  match a with
  | ⟨0, _⟩ =>
    show win0_1.index t 0 * 1024 + 1 * p.val = 1024 * (t.val / 25) + p.val
    rw [(index_facts t).2.2.1]; omega
  | ⟨1, _⟩ =>
    show win0_1.index t 1 * 1 + 1 * 0 = 0
    rw [(index_facts t).2.2.2.1]

end Cert.Reweight.Blocks

end
-- ==== Proof.Invariant.lean ====
/-
  What the kernel's carried columns and output blocks hold after each grid point.

  Point `n` is tile `n % 25` of row block `n / 25`. After it, row `p` of the three carried columns holds the running
  maximum, the running sum of exponentials and the running label entry of logits row `1024 (n / 25) + p` over its
  first `n % 25 + 1` tiles: at a row block's first tile the columns are reset and updated once, afterwards updated
  from what the point before left (an induction over the points). At a row block's last tile the two output blocks
  are "maximum + log (sum)" and the label entry over the whole row.
-/
import proofs.«426821_j4329327035176_3_alg».proof.Proof.Pieces
import proofs.«426821_j4329327035176_3_alg».proof.Proof.Step
import proofs.«426821_j4329327035176_3_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.Reweight.Inv

open Cert.KernelIdeal Cert.KernelIdeal.Gen Cert.Reweight Cert.Reweight.Blocks

variable (m : (ℓ : Loc nD τ sig) → Buf (Elt Ideal) ℓ)

theorem div_lt' {n : ℕ} (hn : n < cfg0.N) : n / 25 < 8 := div_lt ⟨n, hn⟩

/-- The tile number of a point is its second grid coordinate. -/
theorem coord_tile : ∀ t : Fin cfg0.N, ((grid0.coords t) (1 : Fin 2)).val = t.val % 25 :=
  (by decide +kernel : ∀ t : Fin grid0.N, _)

/-- After point `n` the three carried columns hold the running quantities of the rows of `n`'s row block. -/
def Carried (c : Dev nD) (n : ℕ) (hn : n < cfg0.N) : Prop :=
  ∀ p : Fin 1024,
    (outsAt0 m c n hn).2.2.1 (ix2 p (0 : Fin 1)) = mAt (logits m c) (row (n / 25) (div_lt' hn) p) (n % 25 + 1)
    ∧ (outsAt0 m c n hn).2.2.2.1 (ix2 p (0 : Fin 1)) = lAt (logits m c) (row (n / 25) (div_lt' hn) p) (n % 25 + 1)
    ∧ (outsAt0 m c n hn).2.2.2.2 (ix2 p (0 : Fin 1))
        = aAt (logits m c) (labels m c) (row (n / 25) (div_lt' hn) p) (n % 25 + 1)

theorem row_congr {b b' : ℕ} (h : b = b') (hb : b < 8) (hb' : b' < 8) (p : Fin 1024) : row b hb p = row b' hb' p := by
  subst h; rfl

/-- One body run at point `t`, from columns holding the running quantities over the tiles before `t`'s. -/
theorem step_at (c : Dev nD) (hL : Finite (logits m c)) (t : Fin cfg0.N) (mm ll aa : Vec Ideal S1024x1 .f32) (p : Fin 1024)
    (hm : mm (ix2 p (0 : Fin 1)) = mAt (logits m c) (row (t.val / 25) (div_lt t) p) (t.val % 25))
    (hl : ll (ix2 p (0 : Fin 1)) = lAt (logits m c) (row (t.val / 25) (div_lt t) p) (t.val % 25))
    (ha : aa (ix2 p (0 : Fin 1)) = aAt (logits m c) (labels m c) (row (t.val / 25) (div_lt t) p) (t.val % 25)) :
    k0_pay8 (F := Ideal) (xblk m c t) mm (ix2 p (0 : Fin 1))
        = mAt (logits m c) (row (t.val / 25) (div_lt t) p) (t.val % 25 + 1)
    ∧ k0_pay7 (F := Ideal) (xblk m c t) mm mm ll (ix2 p (0 : Fin 1))
        = lAt (logits m c) (row (t.val / 25) (div_lt t) p) (t.val % 25 + 1)
    ∧ k0_pay1 (F := Ideal) (xblk m c t) (k0_pay9 (F := Ideal) (grid0.coords t) (yblk m c t)) aa (ix2 p (0 : Fin 1))
        = aAt (logits m c) (labels m c) (row (t.val / 25) (div_lt t) p) (t.val % 25 + 1) :=
  ⟨Step.next_max (logits m c) _ (t.val % 25) (mod_lt t) p (xblk m c t) mm (fun j => xblk_apply m c t p j) hm,
   Step.next_sum (logits m c) hL _ (t.val % 25) (mod_lt t) p (xblk m c t) mm ll (fun j => xblk_apply m c t p j) hm hl,
   Step.next_lab (logits m c) (labels m c) _ (t.val % 25) (mod_lt t) p (grid0.coords t) (coord_tile t)
     (xblk m c t) (yblk m c t) aa (fun j => xblk_apply m c t p j) (yblk_apply m c t p) ha⟩

/-- A row block's first tile: the columns are reset, then updated once. -/
theorem carried_first (c : Dev nD) (hL : Finite (logits m c)) (t : Fin cfg0.N) (h0 : t.val % 25 = 0)
    (h1 : ¬t.val % 25 = 24) : Carried m c t.val t.isLt := by
  intro p
  have hs := step_at m c hL t (k0_pay3 (F := Ideal)) (k0_pay4 (F := Ideal)) (k0_pay5 (F := Ideal)) p
    (by rw [Pay.pay3_apply, h0, mAt_zero]) (by rw [Pay.pay4_apply, h0, lAt_zero]) (by rw [Pay.pay5_apply, h0, aAt_zero])
  rw [outsAt0_A m c t h0 h1]
  dsimp only
  refine ⟨?_, ?_, ?_⟩
  · refine (congrFun (Pieces.first_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t)) (ix2 p (0 : Fin 1))).trans ?_
    exact hs.1
  · refine (congrFun (Pieces.first_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t)) (ix2 p (0 : Fin 1))).trans ?_
    exact hs.2.1
  · refine (congrFun (Pieces.first_lab (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t)) (ix2 p (0 : Fin 1))).trans ?_
    exact hs.2.2

/-- What the point before a later tile left, restated at this point's row block and tile. -/
theorem prev_facts (c : Dev nD) (t : Fin cfg0.N) (h0 : ¬t.val % 25 = 0)
    (ih : Carried m c (t.val - 1) (Nat.lt_of_le_of_lt (Nat.sub_le _ _) t.isLt)) (p : Fin 1024) :
    (outsAt0 m c (t.val - 1) (Nat.lt_of_le_of_lt (Nat.sub_le _ _) t.isLt)).2.2.1 (ix2 p (0 : Fin 1))
        = mAt (logits m c) (row (t.val / 25) (div_lt t) p) (t.val % 25)
    ∧ (outsAt0 m c (t.val - 1) (Nat.lt_of_le_of_lt (Nat.sub_le _ _) t.isLt)).2.2.2.1 (ix2 p (0 : Fin 1))
        = lAt (logits m c) (row (t.val / 25) (div_lt t) p) (t.val % 25)
    ∧ (outsAt0 m c (t.val - 1) (Nat.lt_of_le_of_lt (Nat.sub_le _ _) t.isLt)).2.2.2.2 (ix2 p (0 : Fin 1))
        = aAt (logits m c) (labels m c) (row (t.val / 25) (div_lt t) p) (t.val % 25) := by
  have e1 : (t.val - 1) / 25 = t.val / 25 := by omega
  have e2 : (t.val - 1) % 25 + 1 = t.val % 25 := by omega
  have hr : row ((t.val - 1) / 25) (div_lt' (Nat.lt_of_le_of_lt (Nat.sub_le _ _) t.isLt)) p = row (t.val / 25) (div_lt t) p :=
    row_congr e1 _ _ p
  have h := ih p
  rw [hr, e2] at h
  exact h

/-- A middle tile: the columns are updated from what the point before left. -/
theorem carried_mid (c : Dev nD) (hL : Finite (logits m c)) (t : Fin cfg0.N) (h0 : ¬t.val % 25 = 0)
    (h1 : ¬t.val % 25 = 24) (ih : Carried m c (t.val - 1) (Nat.lt_of_le_of_lt (Nat.sub_le _ _) t.isLt)) :
    Carried m c t.val t.isLt := by
  intro p
  obtain ⟨hm, hl, ha⟩ := prev_facts m c t h0 ih p
  have hs := step_at m c hL t _ _ _ p hm hl ha
  rw [outsAt0_B m c t h0 h1]
  dsimp only
  refine ⟨?_, ?_, ?_⟩
  · refine (congrFun (Pieces.mid_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    exact hs.1
  · refine (congrFun (Pieces.mid_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    exact hs.2.1
  · refine (congrFun (Pieces.mid_lab (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    exact hs.2.2

/-- The last tile: the columns are updated as at a middle tile. -/
theorem carried_last (c : Dev nD) (hL : Finite (logits m c)) (t : Fin cfg0.N) (h0 : ¬t.val % 25 = 0)
    (h1 : t.val % 25 = 24) (ih : Carried m c (t.val - 1) (Nat.lt_of_le_of_lt (Nat.sub_le _ _) t.isLt)) :
    Carried m c t.val t.isLt := by
  intro p
  obtain ⟨hm, hl, ha⟩ := prev_facts m c t h0 ih p
  have hs := step_at m c hL t _ _ _ p hm hl ha
  rw [outsAt0_C m c t h0 h1]
  dsimp only
  refine ⟨?_, ?_, ?_⟩
  · refine (congrFun (Pieces.last_max (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    exact hs.1
  · refine (congrFun (Pieces.last_sum (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    exact hs.2.1
  · refine (congrFun (Pieces.last_lab (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
    exact hs.2.2

/-- The carried columns after every point. -/
theorem carried (c : Dev nD) (hL : Finite (logits m c)) : ∀ (n : ℕ) (hn : n < cfg0.N), Carried m c n hn
  | 0, hn => carried_first m c hL ⟨0, hn⟩ (Nat.zero_mod _) (by dsimp only; omega)
  | n + 1, hn => by
    by_cases h0 : (n + 1) % 25 = 0
    · exact carried_first m c hL ⟨n + 1, hn⟩ h0 (by dsimp only; omega)
    · by_cases h1 : (n + 1) % 25 = 24
      · exact carried_last m c hL ⟨n + 1, hn⟩ h0 h1 (carried c hL n (Nat.lt_of_succ_lt hn))
      · exact carried_mid m c hL ⟨n + 1, hn⟩ h0 h1 (carried c hL n (Nat.lt_of_succ_lt hn))

/-- At a row block's last tile the first output block is the rows' logsumexp. -/
theorem out_lse (c : Dev nD) (hL : Finite (logits m c)) (t : Fin cfg0.N) (h : t.val % 25 = 24) (p : Fin 1024) :
    (outsAt0 m c t.val t.isLt).1 (ix2 p (0 : Fin 1)) = lseRow (logits m c) (row (t.val / 25) (div_lt t) p) := by
  have h0 : ¬t.val % 25 = 0 := by omega
  obtain ⟨hm, hl, ha⟩ := prev_facts m c t h0 (carried m c hL _ _) p
  have hs := step_at m c hL t _ _ _ p hm hl ha
  rw [outsAt0_C m c t h0 h]
  dsimp only
  refine (congrFun (Pieces.last_lse (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
  rw [Pay.pay2_apply, hs.1, hs.2.1, h, mAt_last, lAt_last]
  rfl

/-- At a row block's last tile the second output block is the rows' label entry. -/
theorem out_lab (c : Dev nD) (hL : Finite (logits m c)) (t : Fin cfg0.N) (h : t.val % 25 = 24) (p : Fin 1024) :
    (outsAt0 m c t.val t.isLt).2.1 (ix2 p (0 : Fin 1))
      = aAt (logits m c) (labels m c) (row (t.val / 25) (div_lt t) p) 25 := by
  have h0 : ¬t.val % 25 = 0 := by omega
  obtain ⟨hm, hl, ha⟩ := prev_facts m c t h0 (carried m c hL _ _) p
  have hs := step_at m c hL t _ _ _ p hm hl ha
  rw [outsAt0_C m c t h0 h]
  dsimp only
  refine (congrFun (Pieces.last_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 p (0 : Fin 1))).trans ?_
  rw [hs.2.2, h]

end Cert.Reweight.Inv

end
-- ==== Proof.Outputs.lean ====
/-
  The two arrays the pipelined region leaves.

  Each row block's two output blocks are written back once, after its last tile; the blocks of the 8 row blocks tile
  the two 8192 × 1 arrays. So after the region the first array holds every row's logsumexp and the second every row's
  running label entry over the whole row, which is the label's logit when the label is a column number.
-/
import proofs.«426821_j4329327035176_3_alg».proof.Proof.Invariant
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Reweight.Out

open Cert.KernelIdeal Cert.KernelIdeal.Gen Cert.Reweight Cert.Reweight.Blocks

variable (m : (ℓ : Loc nD τ sig) → Buf (Elt Ideal) ℓ)

/-! ## The first output array -/

/-- The first output array as one function of the row: each row's logsumexp. -/
def G2 (c : Dev nD) : Vec Ideal S8192x1 .f32 := fun i => lseRow (logits m c) ⟨(i 0).val, idx2_lt0 i⟩

/-- Row `p` of the block of point `t` sits at row `1024 (t / 25) + p` of the array, whatever the array holds. -/
theorem read_blk2 (G : Vec Ideal S8192x1 .f32) (t : Fin cfg0.N) (p : Fin 1024) :
    ((cfg0.win 2).blk t).view.read (Elt Ideal) G (ix2 p (0 : Fin 1))
      = G (ix2 (row (t.val / 25) (div_lt t) p) (0 : Fin 1)) := by
  rw [View.read_apply]
  show G _ = G _
  congr 1
  funext a
  apply Fin.ext
  match a with
  | ⟨0, _⟩ =>
    show win0_2.index t 0 * 1024 + 1 * p.val = 1024 * (t.val / 25) + p.val
    rw [(index_facts t).2.2.2.2.1]; omega
  | ⟨1, _⟩ =>
    show win0_2.index t 1 * 1 + 1 * 0 = 0
    rw [(index_facts t).2.2.2.2.2.1]

/-- What a row block's last tile writes back is that row block's part of the function. -/
theorem flushed2_eq (c : Dev nD) (hL : Finite (logits m c)) (t : Fin cfg0.N) (hf : (cfg0.win 2).flush t = true) :
    (dats m 0 c).flushed 2 t = ((cfg0.win 2).blk t).view.read (Elt Ideal) (G2 m c) := by
  show (cfg0.win 2).cut (grid0.coords t) ((dats m 0 c).after 2 t) = _
  rw [after0_2]
  funext y
  obtain ⟨p, q, rfl⟩ : ∃ (p : Fin 1024) (q : Fin 1), y = ix2 p q := ⟨y 0, y 1, eq_ix2 y⟩
  obtain rfl : q = 0 := Subsingleton.elim _ _
  refine Eq.trans ?_ (read_blk2 (G2 m c) t p).symm
  exact Inv.out_lse m c hL t ((flush0_2 t).mp hf) p

/-- An index of the array is in point `t`'s block iff each coordinate is in the block's range on its axis. -/
theorem mem_blk2 (t : Fin cfg0.N) (i : S8192x1.Idx) :
    i ∈ ((cfg0.win 2).blk t).view.set ↔
      ∀ a : Fin 2, win0_2.index t a * S1024x1.size a ≤ (i a).val
        ∧ (i a).val < win0_2.index t a * S1024x1.size a + S1024x1.size a := by
  show i ∈ ((View.whole main_v1_0).slice (win0_2.rect t)).set ↔ _
  rw [View.set_slice_whole, Rect.mem_set_unit]
  exact Iff.rfl

/-- Row `r` lies in the block written back at the last tile of row block `r / 1024`: the 8 blocks tile the array. -/
theorem cover2 (i : S8192x1.Idx) :
    ∃ t : Fin cfg0.N, (cfg0.win 2).flush t = true ∧ i ∈ ((cfg0.win 2).blk t).view.set := by
  have hN : cfg0.N = 200 := N_0
  have h0 : (i 0).val < 8192 := idx2_lt0 i
  have h1 : (i 1).val < 1 := idx2_lt1 i
  let t : Fin cfg0.N := ⟨25 * ((i 0).val / 1024) + 24, by omega⟩
  have htv : t.val = 25 * ((i 0).val / 1024) + 24 := rfl
  refine ⟨t, (flush0_2 t).mpr (by rw [htv]; omega), ?_⟩
  rw [mem_blk2]
  intro a
  match a with
  | ⟨0, _⟩ =>
    show win0_2.index t 0 * 1024 ≤ (i 0).val ∧ (i 0).val < win0_2.index t 0 * 1024 + 1024
    rw [(index_facts t).2.2.2.2.1, htv]; omega
  | ⟨1, _⟩ =>
    show win0_2.index t 1 * 1 ≤ (i 1).val ∧ (i 1).val < win0_2.index t 1 * 1 + 1
    rw [(index_facts t).2.2.2.2.2.1]; omega

/-- So after the region the first output array is that function. -/
theorem final2 (c : Dev nD) (hL : Finite (logits m c)) : (dats m 0 c).arrAt 2 cfg0.N = G2 m c :=
  (dats m 0 c).arrAt_eq_of_cover 2 (G2 m c) (flushed2_eq m c hL) cover2

/-- After the region the first output array holds each row's logsumexp. -/
theorem final_lse (c : Dev nD) (hL : Finite (logits m c)) (r : Fin 8192) :
    ((dats m 0 c).arrAt 2 cfg0.N : Vec Ideal S8192x1 .f32) (ix2 r (0 : Fin 1)) = lseRow (logits m c) r := by
  rw [final2 m c hL]
  rfl

/-! ## The second output array -/

/-- The second output array as one function of the row: each row's label entry over the whole row. -/
def G3 (c : Dev nD) : Vec Ideal S8192x1 .f32 :=
  fun i => aAt (logits m c) (labels m c) ⟨(i 0).val, idx2_lt0 i⟩ 25

/-- Row `p` of the block of point `t` sits at row `1024 (t / 25) + p` of the array, whatever the array holds. -/
theorem read_blk3 (G : Vec Ideal S8192x1 .f32) (t : Fin cfg0.N) (p : Fin 1024) :
    ((cfg0.win 3).blk t).view.read (Elt Ideal) G (ix2 p (0 : Fin 1))
      = G (ix2 (row (t.val / 25) (div_lt t) p) (0 : Fin 1)) := by
  rw [View.read_apply]
  show G _ = G _
  congr 1
  funext a
  apply Fin.ext
  match a with
  | ⟨0, _⟩ =>
    show win0_3.index t 0 * 1024 + 1 * p.val = 1024 * (t.val / 25) + p.val
    rw [(index_facts t).2.2.2.2.2.2.1]; omega
  | ⟨1, _⟩ =>
    show win0_3.index t 1 * 1 + 1 * 0 = 0
    rw [(index_facts t).2.2.2.2.2.2.2]

/-- What a row block's last tile writes back is that row block's part of the function. -/
theorem flushed3_eq (c : Dev nD) (hL : Finite (logits m c)) (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after0_3]
  funext y
  obtain ⟨p, q, rfl⟩ : ∃ (p : Fin 1024) (q : Fin 1), y = ix2 p q := ⟨y 0, y 1, eq_ix2 y⟩
  obtain rfl : q = 0 := Subsingleton.elim _ _
  refine Eq.trans ?_ (read_blk3 (G3 m c) t p).symm
  exact Inv.out_lab m c hL t ((flush0_3 t).mp hf) p

/-- An index of the array is in point `t`'s block iff each coordinate is in the block's range on its axis. -/
theorem mem_blk3 (t : Fin cfg0.N) (i : S8192x1.Idx) :
    i ∈ ((cfg0.win 3).blk t).view.set ↔
      ∀ a : Fin 2, win0_3.index t a * S1024x1.size a ≤ (i a).val
        ∧ (i a).val < win0_3.index t a * S1024x1.size a + S1024x1.size a := by
  show i ∈ ((View.whole main_v1_1).slice (win0_3.rect t)).set ↔ _
  rw [View.set_slice_whole, Rect.mem_set_unit]
  exact Iff.rfl

/-- Row `r` lies in the block written back at the last tile of row block `r / 1024`. -/
theorem cover3 (i : S8192x1.Idx) :
    ∃ t : Fin cfg0.N, (cfg0.win 3).flush t = true ∧ i ∈ ((cfg0.win 3).blk t).view.set := by
  have hN : cfg0.N = 200 := N_0
  have h0 : (i 0).val < 8192 := idx2_lt0 i
  have h1 : (i 1).val < 1 := idx2_lt1 i
  let t : Fin cfg0.N := ⟨25 * ((i 0).val / 1024) + 24, by omega⟩
  have htv : t.val = 25 * ((i 0).val / 1024) + 24 := rfl
  refine ⟨t, (flush0_3 t).mpr (by rw [htv]; omega), ?_⟩
  rw [mem_blk3]
  intro a
  match a with
  | ⟨0, _⟩ =>
    show win0_3.index t 0 * 1024 ≤ (i 0).val ∧ (i 0).val < win0_3.index t 0 * 1024 + 1024
    rw [(index_facts t).2.2.2.2.2.2.1, htv]; omega
  | ⟨1, _⟩ =>
    show win0_3.index t 1 * 1 ≤ (i 1).val ∧ (i 1).val < win0_3.index t 1 * 1 + 1
    rw [(index_facts t).2.2.2.2.2.2.2]; omega

/-- So after the region the second output array is that function. -/
theorem final3 (c : Dev nD) (hL : Finite (logits m c)) : (dats m 0 c).arrAt 3 cfg0.N = G3 m c :=
  (dats m 0 c).arrAt_eq_of_cover 3 (G3 m c) (flushed3_eq m c hL) cover3

/-- After the region the second output array holds each row's label logit (the labels being column numbers). -/
theorem final_lab (c : Dev nD) (hL : Finite (logits m c)) (hY : InRange (labels m c)) (r : Fin 8192) :
    ((dats m 0 c).arrAt 3 cfg0.N : Vec Ideal S8192x1 .f32) (ix2 r (0 : Fin 1))
      = logits m c (ix2 r (col (labels m c) r)) := by
  rw [final3 m c hL]
  exact aAt_last (logits m c) (labels m c) hY r

end Cert.Reweight.Out

end
-- ==== Proof.KernelTail.lean ====
/-
  The kernel program's host operations after the pipelined region.

  They take the two columns the region produced — per row the logsumexp and the label's logit —, gather each row's
  probability at its label (a take along the second axis with out-of-range indices filled: with every label a column
  number the fill never applies), form the per-row loss "logsumexp − logit" and weight "1 − probability", and divide
  the sum of weight · loss by the sum of the weights.
-/
import proofs.«426821_j4329327035176_3_alg».proof.Proof.Gen.KernelIdeal.Frame
import proofs.«426821_j4329327035176_3_alg».proof.Proof.Spec
import proofs.«426821_j4329327035176_3_alg».proof.Proof.Blocks
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Reweight.Tail

open Cert.KernelIdeal Cert.KernelIdeal.Gen Cert.Reweight

variable (m : (ℓ : Loc nD τ sig) → Buf (Elt Ideal) ℓ)

/-! ## The operations as one function of the four arrays they read -/

/-- The labels with a negative one counted from the end. -/
def normIdx (y : IVec S8192x1 32) : IVec S8192x1 32 :=
  select (cmpi .slt y (broadcastInDim S8192x1 ![] bcast_S_S8192x1 (constantI S_ 32 0#32)))
    (addi y (broadcastInDim S8192x1 ![] bcast_S_S8192x1 (constantI S_ 32 32000#32))) y

/-- The same, one index vector per row. -/
def idx3 (y : IVec S8192x1 32) : IVec S8192x1x1 32 :=
  shapeCast S8192x1x1 (normIdx y) shapeCasts_S8192x1_S8192x1x1

/-- Per row: is the index a column number? -/
def inMask (y : IVec S8192x1 32) : IVec S8192x1 1 :=
  Host.reduce IntOp.andi
    (andi (cmpi .sge (idx3 y) (broadcastInDim S8192x1x1 ![] bcast_S_S8192x1x1 (constantI S_ 32 0#32)))
      (cmpi .sle (idx3 y) (broadcastInDim S8192x1x1 ![0, 1, 2] bcast_S1x1x1_S8192x1x1_0_1_2
        (broadcastInDim S1x1x1 ![2] bcast_S1_S1x1x1_2 (constantI S1 32 31999#32)))))
    (constantI S_ 1 1#1) reducesTo_S8192x1x1_S8192x1_d2 h_S_

/-- Per row: the table's entry at the row's index, or the fill where the index is no column number. -/
def taken (P : Vec Ideal S8192x32000 .f32) (y : IVec S8192x1 32) : Vec Ideal S8192x1 .f32 :=
  select (inMask y) (Host.gather gather_S8192x32000_S8192x1x1_S8192x1_n_1_0_0_1_2_11 P (idx3 y))
    (broadcastInDim S8192x1 ![] bcast_S_S8192x1 (constant (F := Ideal) S_ .f32 0x7FC00000#32))

/-- Per row: one minus the taken entry. -/
def wgt (P : Vec Ideal S8192x32000 .f32) (y : IVec S8192x1 32) : Vec Ideal S8192x1 .f32 :=
  subf (broadcastInDim S8192x1 ![] bcast_S_S8192x1 (constant (F := Ideal) S_ .f32 0x3F800000#32)) (taken P y)

/-- The quotient of the two sums. -/
def tailFn (P : Vec Ideal S8192x32000 .f32) (y : IVec S8192x1 32) (lse ll : Vec Ideal S8192x1 .f32) : Vec Ideal S_ .f32 :=
  Host.divf (F := Ideal)
    (Host.reduceAdd (F := Ideal) (mulf (wgt P y) (subf lse ll)) (constant (F := Ideal) S_ .f32 0x00000000#32) reducesTo_S8192x1_S_d0_1 h_S_)
    (Host.reduceAdd (F := Ideal) (wgt P y) (constant (F := Ideal) S_ .f32 0x00000000#32) reducesTo_S8192x1_S_d0_1 h_S_)

/-! ## Signed comparisons of a label with the two bounds -/

/-- A non-negative word is not below zero. -/
theorem cmpi_slt_zero (a : BitVec 32) (h : 0 ≤ a.toInt) : IntOp.cmpi .slt a 0#32 = 0#1 := by
  have z : (0#32 : BitVec 32).toInt = 0 := by decide
  have e : a.slt 0#32 = false := by
    unfold BitVec.slt
    rw [z]
    exact decide_eq_false (by omega)
  show BitVec.ofBool (a.slt 0#32) = 0#1
  rw [e]; rfl

/-- A non-negative word is at least zero. -/
theorem cmpi_sge_zero (a : BitVec 32) (h : 0 ≤ a.toInt) : IntOp.cmpi .sge a 0#32 = 1#1 := by
  have z : (0#32 : BitVec 32).toInt = 0 := by decide
  have e : (0#32 : BitVec 32).sle a = true := by
    unfold BitVec.sle
    rw [z]
    exact decide_eq_true h
  show BitVec.ofBool ((0#32 : BitVec 32).sle a) = 1#1
  rw [e]; rfl

/-- A word below 32000 is at most 31999. -/
theorem cmpi_sle_last (a : BitVec 32) (h : a.toInt < 32000) : IntOp.cmpi .sle a 31999#32 = 1#1 := by
  have z : (31999#32 : BitVec 32).toInt = 31999 := by decide
  have e : a.sle 31999#32 = true := by
    unfold BitVec.sle
    rw [z]
    exact decide_eq_true (by omega)
  show BitVec.ofBool (a.sle 31999#32) = 1#1
  rw [e]; rfl

/-! ## An `and`-reduction of all ones -/

/-- A left fold by `and` from 1 over 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by `and`, from 1, of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

/-! ## The gather read at a row -/

/-- The gather of row `r`: the table's row `r` at the row's start index, read signed and clamped into the row. -/
theorem gather_apply {α : Type} (P : S8192x32000.Idx → α) (idx : IVec S8192x1x1 32) (r : Fin 8192) (u : Fin 1) :
    Host.gather gather_S8192x32000_S8192x1x1_S8192x1_n_1_0_0_1_2_11 P idx (ix2 r u)
      = P (ix2 r ⟨min (idx (ix3 r u (0 : Fin 1))).toInt.toNat 31999, by omega⟩) := by
  unfold Host.gather
  congr 1
  funext a
  refine Fin.ext ?_
  match a with
  | ⟨0, _⟩ =>
    show gather_S8192x32000_S8192x1x1_S8192x1_n_1_0_0_1_2_11.start (ix2 r u) idx 0
        + gather_S8192x32000_S8192x1x1_S8192x1_n_1_0_0_1_2_11.batchCoord (ix2 r u) 0
        + gather_S8192x32000_S8192x1x1_S8192x1_n_1_0_0_1_2_11.offCoord (ix2 r u) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ gather_S8192x32000_S8192x1x1_S8192x1_n_1_0_0_1_2_11.operandBatchingDims from List.mem_singleton.mpr rfl)]
    rfl
  | ⟨1, _⟩ =>
    show gather_S8192x32000_S8192x1x1_S8192x1_n_1_0_0_1_2_11.start (ix2 r u) idx 1
        + gather_S8192x32000_S8192x1x1_S8192x1_n_1_0_0_1_2_11.batchCoord (ix2 r u) 1
        + gather_S8192x32000_S8192x1x1_S8192x1_n_1_0_0_1_2_11.offCoord (ix2 r u) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x32000_S8192x1x1_S8192x1_n_1_0_0_1_2_11.startIndexMap from List.mem_singleton.mpr rfl)]
    have hsi : gather_S8192x32000_S8192x1x1_S8192x1_n_1_0_0_1_2_11.siIdx (ix2 r u)
        ⟨List.idxOf (1 : Fin 2) gather_S8192x32000_S8192x1x1_S8192x1_n_1_0_0_1_2_11.startIndexMap,
          List.idxOf_lt_length_iff.2 (List.mem_singleton.mpr rfl)⟩ = ix3 r u (0 : Fin 1) := by
      funext b; refine Fin.ext ?_
      match b with
      | ⟨0, _⟩ => rfl
      | ⟨1, _⟩ => rfl
      | ⟨2, _⟩ => rfl
    rw [hsi]
    rfl

/-! ## The take, the weight and the quotient read under the labels' range -/

/-- A sum over a column is the sum over its rows. -/
theorem sum_col (f : S8192x1.Idx → EReal) : ∑ i, f i = ∑ r : Fin 8192, f (ix2 r (0 : Fin 1)) := by
  rw [sum_idx2]
  exact Finset.sum_congr rfl fun r _ => Fin.sum_univ_one _

section Rows

variable (P : Vec Ideal S8192x32000 .f32) (y : IVec S8192x1 32) (Y : IVec SY 32)

variable (hy : ∀ r : Fin 8192, y (ix2 r (0 : Fin 1)) = Y (ix1 r)) (hY : InRange Y)
include hy hY

/-- A label that is a column number is its own normal form. -/
theorem normIdx_apply (r : Fin 8192) : normIdx y (ix2 r (0 : Fin 1)) = Y (ix1 r) := by
  unfold normIdx
  rw [select_apply]
  have hc : cmpi .slt y (broadcastInDim S8192x1 ![] bcast_S_S8192x1 (constantI S_ 32 0#32)) (ix2 r (0 : Fin 1)) = 0#1 := by
    show IntOp.cmpi .slt (y (ix2 r (0 : Fin 1))) 0#32 = 0#1
    rw [hy]
    exact cmpi_slt_zero _ (hY r).1
  rw [hc, select_zero, hy]

/-- The index vector of row `r` holds the row's label. -/
theorem idx3_apply (r : Fin 8192) (u v : Fin 1) : idx3 y (ix3 r u v) = Y (ix1 r) := by
  rw [← normIdx_apply y Y hy hY r]
  unfold idx3
  refine shapeCast_apply _ _ _ _ ?_
  have hu : u.val = 0 := by omega
  have hv : v.val = 0 := by omega
  rw [Shape.rowMajor_val_two, Shape.rowMajor_val_three]
  show r.val * 1 + 0 = (r.val * 1 + u.val) * 1 + v.val
  omega

/-- Every row's index is a column number. -/
theorem inMask_apply (i : S8192x1.Idx) : inMask y i = 1#1 := by
  unfold inMask
  refine reduce_andi_ones _ _ _ _ (fun k => ?_) (fun _ => rfl) i
  obtain ⟨r, u, v, rfl⟩ : ∃ (r : Fin 8192) (u v : Fin 1), k = ix3 r u v := ⟨k 0, k 1, k 2, eq_ix3 k⟩
  show IntOp.andi (IntOp.cmpi .sge (idx3 y (ix3 r u v)) 0#32) (IntOp.cmpi .sle (idx3 y (ix3 r u v)) 31999#32) = 1#1
  rw [idx3_apply y Y hy hY, cmpi_sge_zero _ (hY r).1, cmpi_sle_last _ (hY r).2]
  rfl

/-- The take of row `r` is the table at the row's label. -/
theorem taken_apply (r : Fin 8192) : taken P y (ix2 r (0 : Fin 1)) = P (ix2 r (col Y r)) := by
  unfold taken
  rw [select_apply, inMask_apply y Y hy hY, select_one, gather_apply]
  refine congrArg (fun c => P (ix2 r c)) (Fin.ext ?_)
  show min (idx3 y (ix3 r (0 : Fin 1) (0 : Fin 1))).toInt.toNat 31999 = (col Y r).val
  rw [idx3_apply y Y hy hY]
  rfl

/-- The weight of row `r`. -/
theorem wgt_apply (r : Fin 8192) : wgt P y (ix2 r (0 : Fin 1)) = weight P Y r := by
  unfold wgt weight
  rw [subf_apply, taken_apply P y Y hy hY]
  rfl

/-- The quotient of the two sums is the weighted mean. -/
theorem tailFn_eq (lse ll : Vec Ideal S8192x1 .f32) :
    tailFn P y lse ll = fun _ => total (weight P Y) (fun r => lse (ix2 r (0 : Fin 1)) - ll (ix2 r (0 : Fin 1))) := by
  funext j
  have hnum : ∑ r : Fin 8192, (mulf (wgt P y) (subf lse ll) : FVec Ideal S8192x1 .f32) (ix2 r (0 : Fin 1))
      = ∑ r : Fin 8192, weight P Y r * (lse (ix2 r (0 : Fin 1)) - ll (ix2 r (0 : Fin 1))) :=
    Finset.sum_congr rfl fun r _ => by rw [mulf_apply, subf_apply, wgt_apply P y Y hy hY]
  have hden : ∑ r : Fin 8192, wgt P y (ix2 r (0 : Fin 1)) = ∑ r : Fin 8192, weight P Y r :=
    Finset.sum_congr rfl fun r _ => wgt_apply P y Y hy hY r
  have e : tailFn P y lse ll j = Ideal.div
      (Ideal.hostReduceAdd reducesTo_S8192x1_S_d0_1 (mulf (wgt P y) (subf lse ll) : FVec Ideal S8192x1 .f32) (Ideal.ofBits .f32 0x00000000#32) j)
      (Ideal.hostReduceAdd reducesTo_S8192x1_S_d0_1 (wgt P y) (Ideal.ofBits .f32 0x00000000#32) j) := rfl
  rw [e, Ideal.hostReduceAdd_total _ (fun b => b.elim0), Ideal.hostReduceAdd_total _ (fun b => b.elim0), sum_col, sum_col,
    hnum, hden]
  rfl

end Rows

/-! ## The operations run: the result buffer is that function of the four arrays -/

/-- The result buffer after the operations, from the arrays they read: the region's two output columns, the labels
    column the region read, and the probabilities as launched. -/
theorem tail_eq (c : Dev nD) (lse ll : Vec Ideal S8192x1 .f32)
    (h2 : (dats m 0 c).arrAt 2 cfg0.N = lse) (h3 : (dats m 0 c).arrAt 3 cfg0.N = ll) :
    Pipeline.afterTail₀ cfgs (dats m) 0 (V0 m) [hostOps1, hostOps1_1] c main_v9
      = tailFn (m ((c : Thread nD τ).loc main_arg1)) (V m c main_v0) lse ll := by
  have e0 : Pipeline.withArrays (cfgs 0).spec c (V0 m c) (fun w => (dats m 0 c).arrAt w (cfgs 0).N) (Proc.devRef .tc main_v0)
      = V m c main_v0 :=
    (Pipeline.withArrays_arr spec0 launch0.win.arr_inj c _ _ 1).trans (((dats m 0 c).arrAt_in 1 rfl _).trans (A_eq m c 1))
  have e2 : Pipeline.withArrays (cfgs 0).spec c (V0 m c) (fun w => (dats m 0 c).arrAt w (cfgs 0).N) (Proc.devRef .tc main_v1_0)
      = lse :=
    (Pipeline.withArrays_arr spec0 launch0.win.arr_inj c _ _ 2).trans h2
  have e3 : Pipeline.withArrays (cfgs 0).spec c (V0 m c) (fun w => (dats m 0 c).arrAt w (cfgs 0).N) (Proc.devRef .tc main_v1_1)
      = ll :=
    (Pipeline.withArrays_arr spec0 launch0.win.arr_inj c _ _ 3).trans h3
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  unfold Pipeline.afterTail₀
  simp only [hostOps1, hostOps1_1, List.flatten_cons, List.flatten_nil, List.append_nil, List.cons_append, List.nil_append]
  show StableHlo.after _ _ (Proc.devRef .tc main_v9) = _
  after_results_simp
  rw [e0, e1, e2, e3]
  simp only [StableHlo.TRef.toBuf, StableHlo.TRef.ofBuf, cast_eq]
  rfl

/-- The program's result, from the two columns the region leaves: the weighted mean of "logsumexp − logit" with
    weights "1 − probability at the label", the labels being column numbers. -/
theorem tail_result (c : Dev nD) (lse ll : Vec Ideal S8192x1 .f32)
    (h2 : (dats m 0 c).arrAt 2 cfg0.N = lse) (h3 : (dats m 0 c).arrAt 3 cfg0.N = ll)
    (hY : InRange (m ((c : Thread nD τ).loc main_arg2))) :
    Pipeline.afterTail₀ cfgs (dats m) 0 (V0 m) [hostOps1, hostOps1_1] c main_v9
      = fun _ => total (weight (m ((c : Thread nD τ).loc main_arg1)) (m ((c : Thread nD τ).loc main_arg2)))
          (fun r => lse (ix2 r (0 : Fin 1)) - ll (ix2 r (0 : Fin 1))) := by
  rw [tail_eq m c lse ll h2 h3]
  exact tailFn_eq _ _ _ (fun r => Cert.Reweight.Blocks.V_labels m c r) hY lse ll

end Cert.Reweight.Tail

end
-- ==== Proof.RefRunB.lean ====
/-
  The reference program's operations after its log-softmax table (the index pairs, the two point gathers, the loss,
  the weight, the two sums and the quotient), as a function of what the buffers hold before them: whatever the
  contents, if the table's buffer holds the log-softmax of the logits and the argument buffers hold the probabilities
  and the labels, these 47 operations leave the last stage function's value in the result buffer, and they write no
  argument buffer.
-/
import proofs.«426821_j4329327035176_3_alg».proof.Proof.RefOps
import proofs.«426821_j4329327035176_3_alg».proof.Proof.RefRead

noncomputable section

namespace Cert.Reweight.RefRunB

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- Operations 16 to 62 of the program, in order. -/
abbrev opsB : List (HloOp τ sig (Elt F)) :=
  [ nullary main_v1 (iotaInDim S8192 32 0),
    nullary main_c (constantI S_ 32 0#32),
    unary main_c main_v2 (broadcastInDim S8192 ![] bcast_S_S8192 : (⟨S_, .i32⟩ : BufTy).Contents (Elt F) → (⟨S8192, .i32⟩ : BufTy).Contents (Elt F)),
    binary main_v1 main_v2 main_v3 (cmpi .slt : (⟨S8192, .i32⟩ : BufTy).Contents (Elt F) → (⟨S8192, .i32⟩ : BufTy).Contents (Elt F) → (⟨S8192, .i1⟩ : BufTy).Contents (Elt F)),
    nullary main_c_0 (constantI S_ 32 8192#32),
    unary main_c_0 main_v4 (broadcastInDim S8192 ![] bcast_S_S8192 : (⟨S_, .i32⟩ : BufTy).Contents (Elt F) → (⟨S8192, .i32⟩ : BufTy).Contents (Elt F)),
    binary main_v1 main_v4 main_v5 (addi : (⟨S8192, .i32⟩ : BufTy).Contents (Elt F) → (⟨S8192, .i32⟩ : BufTy).Contents (Elt F) → (⟨S8192, .i32⟩ : BufTy).Contents (Elt F)),
    ternary main_v3 main_v5 main_v1 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_1 (constantI S_ 32 0#32),
    unary main_c_1 main_v7 (broadcastInDim S8192 ![] bcast_S_S8192 : (⟨S_, .i32⟩ : BufTy).Contents (Elt F) → (⟨S8192, .i32⟩ : BufTy).Contents (Elt F)),
    binary main_arg2 main_v7 main_v8 (cmpi .slt : (⟨S8192, .i32⟩ : BufTy).Contents (Elt F) → (⟨S8192, .i32⟩ : BufTy).Contents (Elt F) → (⟨S8192, .i1⟩ : BufTy).Contents (Elt F)),
    nullary main_c_2 (constantI S_ 32 32000#32),
    unary main_c_2 main_v9 (broadcastInDim S8192 ![] bcast_S_S8192 : (⟨S_, .i32⟩ : BufTy).Contents (Elt F) → (⟨S8192, .i32⟩ : BufTy).Contents (Elt F)),
    binary main_arg2 main_v9 main_v10 (addi : (⟨S8192, .i32⟩ : BufTy).Contents (Elt F) → (⟨S8192, .i32⟩ : BufTy).Contents (Elt F) → (⟨S8192, .i32⟩ : BufTy).Contents (Elt F)),
    ternary main_v8 main_v10 main_arg2 main_v11 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v6 main_v12 (broadcastInDim S8192x1 ![0] bcast_S8192_S8192x1_0 : (⟨S8192, .i32⟩ : BufTy).Contents (Elt F) → (⟨S8192x1, .i32⟩ : BufTy).Contents (Elt F)),
    unary main_v11 main_v13 (broadcastInDim S8192x1 ![0] bcast_S8192_S8192x1_0 : (⟨S8192, .i32⟩ : BufTy).Contents (Elt F) → (⟨S8192x1, .i32⟩ : BufTy).Contents (Elt F)),
    binary main_v12 main_v13 main_v14 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v0 main_v14 main_v15 ((fun x i => Host.gather gather_S8192x32000_S8192x2_S8192_n_01_n_n_01_1_11 x i) : (⟨S8192x32000, .f32⟩ : BufTy).Contents (Elt F) → (⟨S8192x2, .i32⟩ : BufTy).Contents (Elt F) → (⟨S8192, .f32⟩ : BufTy).Contents (Elt F)),
    unary main_v15 main_v16 (Host.negf : (⟨S8192, .f32⟩ : BufTy).Contents (Elt F) → (⟨S8192, .f32⟩ : BufTy).Contents (Elt F)),
    nullary main_c_3 (constantI S_ 32 0#32),
    unary main_c_3 main_v17 (broadcastInDim S8192 ![] bcast_S_S8192 : (⟨S_, .i32⟩ : BufTy).Contents (Elt F) → (⟨S8192, .i32⟩ : BufTy).Contents (Elt F)),
    binary main_v1 main_v17 main_v18 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v19 (broadcastInDim S8192 ![] bcast_S_S8192 : (⟨S_, .i32⟩ : BufTy).Contents (Elt F) → (⟨S8192, .i32⟩ : BufTy).Contents (Elt F)),
    binary main_v1 main_v19 main_v20 (addi : (⟨S8192, .i32⟩ : BufTy).Contents (Elt F) → (⟨S8192, .i32⟩ : BufTy).Contents (Elt F) → (⟨S8192, .i32⟩ : BufTy).Contents (Elt F)),
    ternary main_v18 main_v20 main_v1 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_5 (constantI S_ 32 0#32),
    unary main_c_5 main_v22 (broadcastInDim S8192 ![] bcast_S_S8192 : (⟨S_, .i32⟩ : BufTy).Contents (Elt F) → (⟨S8192, .i32⟩ : BufTy).Contents (Elt F)),
    binary main_arg2 main_v22 main_v23 (cmpi .slt : (⟨S8192, .i32⟩ : BufTy).Contents (Elt F) → (⟨S8192, .i32⟩ : BufTy).Contents (Elt F) → (⟨S8192, .i1⟩ : BufTy).Contents (Elt F)),
    nullary main_c_6 (constantI S_ 32 32000#32),
    unary main_c_6 main_v24 (broadcastInDim S8192 ![] bcast_S_S8192 : (⟨S_, .i32⟩ : BufTy).Contents (Elt F) → (⟨S8192, .i32⟩ : BufTy).Contents (Elt F)),
    binary main_arg2 main_v24 main_v25 (addi : (⟨S8192, .i32⟩ : BufTy).Contents (Elt F) → (⟨S8192, .i32⟩ : BufTy).Contents (Elt F) → (⟨S8192, .i32⟩ : BufTy).Contents (Elt F)),
    ternary main_v23 main_v25 main_arg2 main_v26 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v21 main_v27 (broadcastInDim S8192x1 ![0] bcast_S8192_S8192x1_0 : (⟨S8192, .i32⟩ : BufTy).Contents (Elt F) → (⟨S8192x1, .i32⟩ : BufTy).Contents (Elt F)),
    unary main_v26 main_v28 (broadcastInDim S8192x1 ![0] bcast_S8192_S8192x1_0 : (⟨S8192, .i32⟩ : BufTy).Contents (Elt F) → (⟨S8192x1, .i32⟩ : BufTy).Contents (Elt F)),
    binary main_v27 main_v28 main_v29 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_arg1 main_v29 main_v30 ((fun x i => Host.gather gather_S8192x32000_S8192x2_S8192_n_01_n_n_01_1_11 x i) : (⟨S8192x32000, .f32⟩ : BufTy).Contents (Elt F) → (⟨S8192x2, .i32⟩ : BufTy).Contents (Elt F) → (⟨S8192, .f32⟩ : BufTy).Contents (Elt F)),
    nullary main_cst (constant S_ .f32 0x3F800000#32),
    unary main_cst main_v31 (broadcastInDim S8192 ![] bcast_S_S8192 : (⟨S_, .f32⟩ : BufTy).Contents (Elt F) → (⟨S8192, .f32⟩ : BufTy).Contents (Elt F)),
    binary main_v31 main_v30 main_v32 (subf : (⟨S8192, .f32⟩ : BufTy).Contents (Elt F) → (⟨S8192, .f32⟩ : BufTy).Contents (Elt F) → (⟨S8192, .f32⟩ : BufTy).Contents (Elt F)),
    binary main_v32 main_v16 main_v33 (mulf : (⟨S8192, .f32⟩ : BufTy).Contents (Elt F) → (⟨S8192, .f32⟩ : BufTy).Contents (Elt F) → (⟨S8192, .f32⟩ : BufTy).Contents (Elt F)),
    nullary main_cst_7 (constant S_ .f32 0x00000000#32),
    binary main_v33 main_cst_7 main_v34 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x00000000#32),
    binary main_v32 main_cst_8 main_v35 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    binary main_v34 main_v35 main_v36 (Host.divf : (⟨S_, .f32⟩ : BufTy).Contents (Elt F) → (⟨S_, .f32⟩ : BufTy).Contents (Elt F) → (⟨S_, .f32⟩ : BufTy).Contents (Elt F)) ]

/-! ## The operations in five consecutive stretches -/

/-- The two columns of the first index pairs: the row numbers and the labels, each made non-negative. -/
abbrev b1 : List (HloOp τ sig (Elt F)) :=
  [ nullary main_v1 (iotaInDim S8192 32 0),
    nullary main_c (constantI S_ 32 0#32),
    unary main_c main_v2 (broadcastInDim S8192 ![] bcast_S_S8192 : (⟨S_, .i32⟩ : BufTy).Contents (Elt F) → (⟨S8192, .i32⟩ : BufTy).Contents (Elt F)),
    binary main_v1 main_v2 main_v3 (cmpi .slt : (⟨S8192, .i32⟩ : BufTy).Contents (Elt F) → (⟨S8192, .i32⟩ : BufTy).Contents (Elt F) → (⟨S8192, .i1⟩ : BufTy).Contents (Elt F)),
    nullary main_c_0 (constantI S_ 32 8192#32),
    unary main_c_0 main_v4 (broadcastInDim S8192 ![] bcast_S_S8192 : (⟨S_, .i32⟩ : BufTy).Contents (Elt F) → (⟨S8192, .i32⟩ : BufTy).Contents (Elt F)),
    binary main_v1 main_v4 main_v5 (addi : (⟨S8192, .i32⟩ : BufTy).Contents (Elt F) → (⟨S8192, .i32⟩ : BufTy).Contents (Elt F) → (⟨S8192, .i32⟩ : BufTy).Contents (Elt F)),
    ternary main_v3 main_v5 main_v1 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_1 (constantI S_ 32 0#32),
    unary main_c_1 main_v7 (broadcastInDim S8192 ![] bcast_S_S8192 : (⟨S_, .i32⟩ : BufTy).Contents (Elt F) → (⟨S8192, .i32⟩ : BufTy).Contents (Elt F)),
    binary main_arg2 main_v7 main_v8 (cmpi .slt : (⟨S8192, .i32⟩ : BufTy).Contents (Elt F) → (⟨S8192, .i32⟩ : BufTy).Contents (Elt F) → (⟨S8192, .i1⟩ : BufTy).Contents (Elt F)),
    nullary main_c_2 (constantI S_ 32 32000#32),
    unary main_c_2 main_v9 (broadcastInDim S8192 ![] bcast_S_S8192 : (⟨S_, .i32⟩ : BufTy).Contents (Elt F) → (⟨S8192, .i32⟩ : BufTy).Contents (Elt F)),
    binary main_arg2 main_v9 main_v10 (addi : (⟨S8192, .i32⟩ : BufTy).Contents (Elt F) → (⟨S8192, .i32⟩ : BufTy).Contents (Elt F) → (⟨S8192, .i32⟩ : BufTy).Contents (Elt F)),
    ternary main_v8 main_v10 main_arg2 main_v11 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v6 main_v12 (broadcastInDim S8192x1 ![0] bcast_S8192_S8192x1_0 : (⟨S8192, .i32⟩ : BufTy).Contents (Elt F) → (⟨S8192x1, .i32⟩ : BufTy).Contents (Elt F)),
    unary main_v11 main_v13 (broadcastInDim S8192x1 ![0] bcast_S8192_S8192x1_0 : (⟨S8192, .i32⟩ : BufTy).Contents (Elt F) → (⟨S8192x1, .i32⟩ : BufTy).Contents (Elt F)) ]

/-- The first index pairs. -/
abbrev b2 : List (HloOp τ sig (Elt F)) :=
  [ binary main_v12 main_v13 main_v14 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) ]

/-- The first gather, the negation, and the two columns of the second index pairs. -/
abbrev b3 : List (HloOp τ sig (Elt F)) :=
  [ binary main_v0 main_v14 main_v15 ((fun x i => Host.gather gather_S8192x32000_S8192x2_S8192_n_01_n_n_01_1_11 x i) : (⟨S8192x32000, .f32⟩ : BufTy).Contents (Elt F) → (⟨S8192x2, .i32⟩ : BufTy).Contents (Elt F) → (⟨S8192, .f32⟩ : BufTy).Contents (Elt F)),
    unary main_v15 main_v16 (Host.negf : (⟨S8192, .f32⟩ : BufTy).Contents (Elt F) → (⟨S8192, .f32⟩ : BufTy).Contents (Elt F)),
    nullary main_c_3 (constantI S_ 32 0#32),
    unary main_c_3 main_v17 (broadcastInDim S8192 ![] bcast_S_S8192 : (⟨S_, .i32⟩ : BufTy).Contents (Elt F) → (⟨S8192, .i32⟩ : BufTy).Contents (Elt F)),
    binary main_v1 main_v17 main_v18 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v19 (broadcastInDim S8192 ![] bcast_S_S8192 : (⟨S_, .i32⟩ : BufTy).Contents (Elt F) → (⟨S8192, .i32⟩ : BufTy).Contents (Elt F)),
    binary main_v1 main_v19 main_v20 (addi : (⟨S8192, .i32⟩ : BufTy).Contents (Elt F) → (⟨S8192, .i32⟩ : BufTy).Contents (Elt F) → (⟨S8192, .i32⟩ : BufTy).Contents (Elt F)),
    ternary main_v18 main_v20 main_v1 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_5 (constantI S_ 32 0#32),
    unary main_c_5 main_v22 (broadcastInDim S8192 ![] bcast_S_S8192 : (⟨S_, .i32⟩ : BufTy).Contents (Elt F) → (⟨S8192, .i32⟩ : BufTy).Contents (Elt F)),
    binary main_arg2 main_v22 main_v23 (cmpi .slt : (⟨S8192, .i32⟩ : BufTy).Contents (Elt F) → (⟨S8192, .i32⟩ : BufTy).Contents (Elt F) → (⟨S8192, .i1⟩ : BufTy).Contents (Elt F)),
    nullary main_c_6 (constantI S_ 32 32000#32),
    unary main_c_6 main_v24 (broadcastInDim S8192 ![] bcast_S_S8192 : (⟨S_, .i32⟩ : BufTy).Contents (Elt F) → (⟨S8192, .i32⟩ : BufTy).Contents (Elt F)),
    binary main_arg2 main_v24 main_v25 (addi : (⟨S8192, .i32⟩ : BufTy).Contents (Elt F) → (⟨S8192, .i32⟩ : BufTy).Contents (Elt F) → (⟨S8192, .i32⟩ : BufTy).Contents (Elt F)),
    ternary main_v23 main_v25 main_arg2 main_v26 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v21 main_v27 (broadcastInDim S8192x1 ![0] bcast_S8192_S8192x1_0 : (⟨S8192, .i32⟩ : BufTy).Contents (Elt F) → (⟨S8192x1, .i32⟩ : BufTy).Contents (Elt F)),
    unary main_v26 main_v28 (broadcastInDim S8192x1 ![0] bcast_S8192_S8192x1_0 : (⟨S8192, .i32⟩ : BufTy).Contents (Elt F) → (⟨S8192x1, .i32⟩ : BufTy).Contents (Elt F)) ]

/-- The second index pairs. -/
abbrev b4 : List (HloOp τ sig (Elt F)) :=
  [ binary main_v27 main_v28 main_v29 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) ]

/-- The second gather, the weight, the products, the two sums and the quotient. -/
abbrev b5 : List (HloOp τ sig (Elt F)) :=
  [ binary main_arg1 main_v29 main_v30 ((fun x i => Host.gather gather_S8192x32000_S8192x2_S8192_n_01_n_n_01_1_11 x i) : (⟨S8192x32000, .f32⟩ : BufTy).Contents (Elt F) → (⟨S8192x2, .i32⟩ : BufTy).Contents (Elt F) → (⟨S8192, .f32⟩ : BufTy).Contents (Elt F)),
    nullary main_cst (constant S_ .f32 0x3F800000#32),
    unary main_cst main_v31 (broadcastInDim S8192 ![] bcast_S_S8192 : (⟨S_, .f32⟩ : BufTy).Contents (Elt F) → (⟨S8192, .f32⟩ : BufTy).Contents (Elt F)),
    binary main_v31 main_v30 main_v32 (subf : (⟨S8192, .f32⟩ : BufTy).Contents (Elt F) → (⟨S8192, .f32⟩ : BufTy).Contents (Elt F) → (⟨S8192, .f32⟩ : BufTy).Contents (Elt F)),
    binary main_v32 main_v16 main_v33 (mulf : (⟨S8192, .f32⟩ : BufTy).Contents (Elt F) → (⟨S8192, .f32⟩ : BufTy).Contents (Elt F) → (⟨S8192, .f32⟩ : BufTy).Contents (Elt F)),
    nullary main_cst_7 (constant S_ .f32 0x00000000#32),
    binary main_v33 main_cst_7 main_v34 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x00000000#32),
    binary main_v32 main_cst_8 main_v35 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    binary main_v34 main_v35 main_v36 (Host.divf : (⟨S_, .f32⟩ : BufTy).Contents (Elt F) → (⟨S_, .f32⟩ : BufTy).Contents (Elt F) → (⟨S_, .f32⟩ : BufTy).Contents (Elt F)) ]

/-- The operations are the five stretches in order. -/
theorem opsB_eq : opsB (F := F) = b1 ++ (b2 ++ (b3 ++ (b4 ++ b5))) := rfl

/-! ## Stretch 1 -/

/-- The row-number column, whatever the contents before. -/
theorem b1_v12 (V : Valuation τ sig (Elt F)) :
    StableHlo.after (b1 (F := F)) V (Proc.devRef .tc main_v12) = val_main_v12 (F := F) := by
  after_results
  rfl

/-- The label column, from the labels' buffer. -/
theorem b1_v13 (V : Valuation τ sig (Elt F)) :
    StableHlo.after (b1 (F := F)) V (Proc.devRef .tc main_v13)
      = val_main_v13 (F := F) (V (Proc.devRef .tc main_arg2)) := by
  after_results
  rfl

/-- The row numbers. -/
theorem b1_v1 (V : Valuation τ sig (Elt F)) :
    StableHlo.after (b1 (F := F)) V (Proc.devRef .tc main_v1) = val_main_v1 (F := F) := by
  after_results
  rfl

theorem b1_v0 (V : Valuation τ sig (Elt F)) :
    StableHlo.after (b1 (F := F)) V (Proc.devRef .tc main_v0) = V (Proc.devRef .tc main_v0) := by
  after_results

theorem b1_arg0 (V : Valuation τ sig (Elt F)) :
    StableHlo.after (b1 (F := F)) V (Proc.devRef .tc main_arg0) = V (Proc.devRef .tc main_arg0) := by
  after_results

theorem b1_arg1 (V : Valuation τ sig (Elt F)) :
    StableHlo.after (b1 (F := F)) V (Proc.devRef .tc main_arg1) = V (Proc.devRef .tc main_arg1) := by
  after_results

theorem b1_arg2 (V : Valuation τ sig (Elt F)) :
    StableHlo.after (b1 (F := F)) V (Proc.devRef .tc main_arg2) = V (Proc.devRef .tc main_arg2) := by
  after_results

/-! ## Stretch 2 -/

/-- The first index pairs, from the two columns. -/
theorem b2_v14 (V : Valuation τ sig (Elt F)) (x2 : (⟨S8192, .i32⟩ : BufTy).Contents (Elt F))
    (h12 : V (Proc.devRef .tc main_v12) = val_main_v12 (F := F))
    (h13 : V (Proc.devRef .tc main_v13) = val_main_v13 (F := F) x2) :
    StableHlo.after (b2 (F := F)) V (Proc.devRef .tc main_v14) = val_main_v14 (F := F) x2 := by
  after_results
  rw [h12, h13]
  rfl

theorem b2_v0 (V : Valuation τ sig (Elt F)) :
    StableHlo.after (b2 (F := F)) V (Proc.devRef .tc main_v0) = V (Proc.devRef .tc main_v0) := by
  after_results

theorem b2_v1 (V : Valuation τ sig (Elt F)) :
    StableHlo.after (b2 (F := F)) V (Proc.devRef .tc main_v1) = V (Proc.devRef .tc main_v1) := by
  after_results

theorem b2_arg0 (V : Valuation τ sig (Elt F)) :
    StableHlo.after (b2 (F := F)) V (Proc.devRef .tc main_arg0) = V (Proc.devRef .tc main_arg0) := by
  after_results

theorem b2_arg1 (V : Valuation τ sig (Elt F)) :
    StableHlo.after (b2 (F := F)) V (Proc.devRef .tc main_arg1) = V (Proc.devRef .tc main_arg1) := by
  after_results

theorem b2_arg2 (V : Valuation τ sig (Elt F)) :
    StableHlo.after (b2 (F := F)) V (Proc.devRef .tc main_arg2) = V (Proc.devRef .tc main_arg2) := by
  after_results

/-! ## Stretch 3 -/

/-- The negated gathered log-softmax, from the table and the first index pairs. -/
theorem b3_v16 (V : Valuation τ sig (Elt F)) (x0 : (⟨S8192x32000, .f32⟩ : BufTy).Contents (Elt F))
    (x2 : (⟨S8192, .i32⟩ : BufTy).Contents (Elt F))
    (h0 : V (Proc.devRef .tc main_v0) = val_main_v0 (F := F) x0)
    (h14 : V (Proc.devRef .tc main_v14) = val_main_v14 (F := F) x2) :
    StableHlo.after (b3 (F := F)) V (Proc.devRef .tc main_v16) = val_main_v16 (F := F) x0 x2 := by
  after_results
  rw [h0, h14]
  rfl

/-- The second row-number column, from the row numbers. -/
theorem b3_v27 (V : Valuation τ sig (Elt F)) (h1 : V (Proc.devRef .tc main_v1) = val_main_v1 (F := F)) :
    StableHlo.after (b3 (F := F)) V (Proc.devRef .tc main_v27) = val_main_v27 (F := F) := by
  after_results
  rw [h1]
  rfl

/-- The second label column, from the labels' buffer. -/
theorem b3_v28 (V : Valuation τ sig (Elt F)) :
    StableHlo.after (b3 (F := F)) V (Proc.devRef .tc main_v28)
      = val_main_v28 (F := F) (V (Proc.devRef .tc main_arg2)) := by
  after_results
  rfl

theorem b3_arg0 (V : Valuation τ sig (Elt F)) :
    StableHlo.after (b3 (F := F)) V (Proc.devRef .tc main_arg0) = V (Proc.devRef .tc main_arg0) := by
  after_results

theorem b3_arg1 (V : Valuation τ sig (Elt F)) :
    StableHlo.after (b3 (F := F)) V (Proc.devRef .tc main_arg1) = V (Proc.devRef .tc main_arg1) := by
  after_results

theorem b3_arg2 (V : Valuation τ sig (Elt F)) :
    StableHlo.after (b3 (F := F)) V (Proc.devRef .tc main_arg2) = V (Proc.devRef .tc main_arg2) := by
  after_results

/-! ## Stretch 4 -/

/-- The second index pairs, from the two columns. -/
theorem b4_v29 (V : Valuation τ sig (Elt F)) (x2 : (⟨S8192, .i32⟩ : BufTy).Contents (Elt F))
    (h27 : V (Proc.devRef .tc main_v27) = val_main_v27 (F := F))
    (h28 : V (Proc.devRef .tc main_v28) = val_main_v28 (F := F) x2) :
    StableHlo.after (b4 (F := F)) V (Proc.devRef .tc main_v29) = val_main_v29 (F := F) x2 := by
  after_results
  rw [h27, h28]
  rfl

theorem b4_v16 (V : Valuation τ sig (Elt F)) :
    StableHlo.after (b4 (F := F)) V (Proc.devRef .tc main_v16) = V (Proc.devRef .tc main_v16) := by
  after_results

theorem b4_arg0 (V : Valuation τ sig (Elt F)) :
    StableHlo.after (b4 (F := F)) V (Proc.devRef .tc main_arg0) = V (Proc.devRef .tc main_arg0) := by
  after_results

theorem b4_arg1 (V : Valuation τ sig (Elt F)) :
    StableHlo.after (b4 (F := F)) V (Proc.devRef .tc main_arg1) = V (Proc.devRef .tc main_arg1) := by
  after_results

theorem b4_arg2 (V : Valuation τ sig (Elt F)) :
    StableHlo.after (b4 (F := F)) V (Proc.devRef .tc main_arg2) = V (Proc.devRef .tc main_arg2) := by
  after_results

/-! ## Stretch 5 -/

/-- The quotient, from the probabilities, the second index pairs and the negated gathered log-softmax. -/
theorem b5_v36 (V : Valuation τ sig (Elt F)) (x0 x1 : (⟨S8192x32000, .f32⟩ : BufTy).Contents (Elt F))
    (x2 : (⟨S8192, .i32⟩ : BufTy).Contents (Elt F))
    (h1 : V (Proc.devRef .tc main_arg1) = x1)
    (h29 : V (Proc.devRef .tc main_v29) = val_main_v29 (F := F) x2)
    (h16 : V (Proc.devRef .tc main_v16) = val_main_v16 (F := F) x0 x2) :
    StableHlo.after (b5 (F := F)) V (Proc.devRef .tc main_v36) = val_main_v36 (F := F) x0 x1 x2 := by
  after_results
  rw [h1, h29, h16]
  rfl

theorem b5_arg0 (V : Valuation τ sig (Elt F)) :
    StableHlo.after (b5 (F := F)) V (Proc.devRef .tc main_arg0) = V (Proc.devRef .tc main_arg0) := by
  after_results

theorem b5_arg1 (V : Valuation τ sig (Elt F)) :
    StableHlo.after (b5 (F := F)) V (Proc.devRef .tc main_arg1) = V (Proc.devRef .tc main_arg1) := by
  after_results

theorem b5_arg2 (V : Valuation τ sig (Elt F)) :
    StableHlo.after (b5 (F := F)) V (Proc.devRef .tc main_arg2) = V (Proc.devRef .tc main_arg2) := by
  after_results

/-! ## The whole -/
/-- The result buffer after these operations, from the table and the two arguments they read. -/
theorem result (V : Valuation τ sig (Elt F)) (x0 x1 : (⟨S8192x32000, .f32⟩ : BufTy).Contents (Elt F))
    (x2 : (⟨S8192, .i32⟩ : BufTy).Contents (Elt F))
    (h0 : V (Proc.devRef .tc main_v0) = val_main_v0 (F := F) x0)
    (h1 : V (Proc.devRef .tc main_arg1) = x1) (h2 : V (Proc.devRef .tc main_arg2) = x2) :
    StableHlo.after (opsB (F := F)) V (Proc.devRef .tc main_v36) = val_main_v36 (F := F) x0 x1 x2 := by
  rw [opsB_eq, StableHlo.after_append, StableHlo.after_append, StableHlo.after_append, StableHlo.after_append]
  have e14 : StableHlo.after (b2 (F := F)) (StableHlo.after b1 V) (Proc.devRef .tc main_v14) = val_main_v14 (F := F) x2 :=
    b2_v14 _ x2 (b1_v12 V) (by rw [b1_v13, h2])
  have e16 : StableHlo.after (b3 (F := F)) (StableHlo.after b2 (StableHlo.after b1 V)) (Proc.devRef .tc main_v16)
      = val_main_v16 (F := F) x0 x2 :=
    b3_v16 _ x0 x2 (by rw [b2_v0, b1_v0, h0]) e14
  have e27 : StableHlo.after (b3 (F := F)) (StableHlo.after b2 (StableHlo.after b1 V)) (Proc.devRef .tc main_v27)
      = val_main_v27 (F := F) :=
    b3_v27 _ (by rw [b2_v1, b1_v1])
  have e28 : StableHlo.after (b3 (F := F)) (StableHlo.after b2 (StableHlo.after b1 V)) (Proc.devRef .tc main_v28)
      = val_main_v28 (F := F) x2 := by
    rw [b3_v28, b2_arg2, b1_arg2, h2]
  exact b5_v36 _ x0 x1 x2 (by rw [b4_arg1, b3_arg1, b2_arg1, b1_arg1, h1]) (b4_v29 _ x2 e27 e28) (by rw [b4_v16, e16])

/-- These operations write no argument buffer. -/
theorem kept (V : Valuation τ sig (Elt F)) :
    StableHlo.after (opsB (F := F)) V (Proc.devRef .tc main_arg0) = V (Proc.devRef .tc main_arg0)
    ∧ StableHlo.after (opsB (F := F)) V (Proc.devRef .tc main_arg1) = V (Proc.devRef .tc main_arg1)
    ∧ StableHlo.after (opsB (F := F)) V (Proc.devRef .tc main_arg2) = V (Proc.devRef .tc main_arg2) := by
  rw [opsB_eq, StableHlo.after_append, StableHlo.after_append, StableHlo.after_append, StableHlo.after_append]
  refine ⟨?_, ?_, ?_⟩
  · rw [b5_arg0, b4_arg0, b3_arg0, b2_arg0, b1_arg0]
  · rw [b5_arg1, b4_arg1, b3_arg1, b2_arg1, b1_arg1]
  · rw [b5_arg2, b4_arg2, b3_arg2, b2_arg2, b1_arg2]

end Cert.Reweight.RefRunB

end
-- ==== Proof.RefRun.lean ====
/-
  The reference program's run: every execution ends with its result at the composition of its 62 host operations,
  stated through the one-operation-at-a-time stage functions, and its arguments unchanged.

  The operation list is cut in two. What the first 15 operations (the row-wise log-softmax of the logits) leave in
  the log-softmax's buffer is the stage function of the logits, whatever the contents before them; what the other
  47 leave in the result buffer, from that buffer and the arguments, is the last stage function; the two compose.
-/
import proofs.«426821_j4329327035176_3_alg».proof.Proof.RefOps
import proofs.«426821_j4329327035176_3_alg».proof.Proof.RefRead
import proofs.«426821_j4329327035176_3_alg».proof.Proof.RefRunB

noncomputable section

namespace Cert.Reweight.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192

/-- The contents after two stretches of operations in a row. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-! ## Typed reading

The first 15 operations are a called function's, written over references that carry the type of the value they hold:
each passes contents between a buffer's own type and the value's type. Reading a buffer AT THE VALUE'S TYPE undoes the
passage, so that, read that way, each operation's result is its function of its operands read that way. -/

section Typed

variable {T Tx Ty Ta Tb Tz : BufTy}

/-- The contents of a typed reference's buffer, at the value's type. -/
def rd (W : Valuation τ sig (Elt F)) (x : TRef sig T) : T.Contents (Elt F) := x.ofBuf (W (Proc.devRef .tc x.ref))

/-- Passing a value to the buffer's type and back gives the value. -/
theorem ofBuf_toBuf (x : TRef sig T) (v : T.Contents (Elt F)) : x.ofBuf (x.toBuf v) = v := by
  obtain ⟨r, rfl, _, _⟩ := x
  rfl

theorem rd_nullary (y : TRef sig Ty) (v : Ty.Contents (Elt F)) (W : Valuation τ sig (Elt F)) :
    rd ((TRef.nullary y v : HloOp τ sig (Elt F)).result W) y = v := by
  unfold rd
  rw [nullary_result]
  exact ofBuf_toBuf y v

theorem rd_unary (x : TRef sig Tx) (y : TRef sig Ty) (f : Tx.Contents (Elt F) → Ty.Contents (Elt F))
    (W : Valuation τ sig (Elt F)) :
    rd ((TRef.unary x y f : HloOp τ sig (Elt F)).result W) y = f (rd W x) := by
  unfold rd
  rw [unary_result]
  exact ofBuf_toBuf y _

theorem rd_binary (a : TRef sig Ta) (b : TRef sig Tb) (y : TRef sig Ty)
    (f : Ta.Contents (Elt F) → Tb.Contents (Elt F) → Ty.Contents (Elt F)) (W : Valuation τ sig (Elt F)) :
    rd ((TRef.binary a b y f : HloOp τ sig (Elt F)).result W) y = f (rd W a) (rd W b) := by
  unfold rd
  rw [binary_result]
  exact ofBuf_toBuf y _

theorem rd_nullary_ne (y : TRef sig Ty) (v : Ty.Contents (Elt F)) (W : Valuation τ sig (Elt F)) (z : TRef sig Tz)
    (h : z.ref ≠ y.ref) : rd ((TRef.nullary y v : HloOp τ sig (Elt F)).result W) z = rd W z :=
  congrArg z.ofBuf (nullary_result_ne _ _ _ W h)

theorem rd_unary_ne (x : TRef sig Tx) (y : TRef sig Ty) (f : Tx.Contents (Elt F) → Ty.Contents (Elt F))
    (W : Valuation τ sig (Elt F)) (z : TRef sig Tz) (h : z.ref ≠ y.ref) :
    rd ((TRef.unary x y f : HloOp τ sig (Elt F)).result W) z = rd W z :=
  congrArg z.ofBuf (unary_result_ne _ _ _ _ _ W h)

theorem rd_binary_ne (a : TRef sig Ta) (b : TRef sig Tb) (y : TRef sig Ty)
    (f : Ta.Contents (Elt F) → Tb.Contents (Elt F) → Ty.Contents (Elt F)) (W : Valuation τ sig (Elt F)) (z : TRef sig Tz)
    (h : z.ref ≠ y.ref) : rd ((TRef.binary a b y f : HloOp τ sig (Elt F)).result W) z = rd W z :=
  congrArg z.ofBuf (binary_result_ne _ _ _ _ _ _ _ W h)

end Typed

/-! ## The first 15 operations -/

/-- The first 15 operations: the row-wise log-softmax of the logits. -/
abbrev opsA : List (HloOp τ sig (Elt F)) :=
  [ TRef.nullary (TRef.of (T := ⟨S_, .f32⟩) main_call0_cst) (constant S_ .f32 0xFF800000#32),
    TRef.binary (TRef.of (T := ⟨S8192x32000, .f32⟩) main_arg0) (TRef.of (T := ⟨S_, .f32⟩) main_call0_cst) (TRef.of (T := ⟨S8192, .f32⟩) main_call0_v0) (fun x v => Host.reduce FloatOps.maximumf x v reducesTo_S8192x32000_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x32000, .f32⟩) main_call0_v4) (broadcastInDim S8192x32000 ![0, 1] bcast_S8192x1_S8192x32000_0_1),
    TRef.binary (TRef.of (T := ⟨S8192x32000, .f32⟩) main_arg0) (TRef.of (T := ⟨S8192x32000, .f32⟩) main_call0_v4) (TRef.of (T := ⟨S8192x32000, .f32⟩) main_call0_v5) subf,
    TRef.unary (TRef.of (T := ⟨S8192x32000, .f32⟩) main_call0_v5) (TRef.of (T := ⟨S8192x32000, .f32⟩) main_call0_v6) Host.exp,
    TRef.nullary (TRef.of (T := ⟨S_, .f32⟩) main_call0_cst_1) (constant S_ .f32 0x00000000#32),
    TRef.binary (TRef.of (T := ⟨S8192x32000, .f32⟩) main_call0_v6) (TRef.of (T := ⟨S_, .f32⟩) main_call0_cst_1) (TRef.of (T := ⟨S8192, .f32⟩) main_call0_v7) (fun x v => Host.reduceAdd x v reducesTo_S8192x32000_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x32000, .f32⟩) main_call0_v10) (broadcastInDim S8192x32000 ![0, 1] bcast_S8192x1_S8192x32000_0_1),
    TRef.binary (TRef.of (T := ⟨S8192x32000, .f32⟩) main_call0_v5) (TRef.of (T := ⟨S8192x32000, .f32⟩) main_call0_v10) (TRef.of (T := ⟨S8192x32000, .f32⟩) main_v0) subf ]

/-- Read at the value's type, the log-softmax's buffer after the first 15 operations holds the stage function of the
    logits' buffer read at the value's type: one rewriting per operation and live buffer, then the stage functions
    unfolded. -/
theorem opsA_rd (W : Valuation τ sig (Elt F)) :
    rd (after opsA W) (TRef.of (T := ⟨S8192x32000, .f32⟩) main_v0)
      = val_main_v0 (F := F) (rd W (TRef.of (T := ⟨S8192x32000, .f32⟩) main_arg0)) := by
  simp only [after_cons, after_nil]
  repeat (first
    | rw [rd_nullary] | rw [rd_unary] | rw [rd_binary]
    | (rw [rd_nullary_ne]; rotate_left; decide)
    | (rw [rd_unary_ne]; rotate_left; decide)
    | (rw [rd_binary_ne]; rotate_left; decide))
  unfold val_main_v0 val_main_call0_v10 val_main_call0_v9 val_main_call0_v8 val_main_call0_v7 val_main_call0_cst_1 val_main_call0_v6
    val_main_call0_v5 val_main_call0_v4 val_main_call0_v3 val_main_call0_v2 val_main_call0_v1 val_main_call0_cst_0 val_main_call0_v0
    val_main_call0_cst
  rfl

/-- Reading these two buffers at the value's type is reading them. -/
theorem rd_main_v0 (W : Valuation τ sig (Elt F)) :
    rd W (TRef.of (T := ⟨S8192x32000, .f32⟩) main_v0) = W (Proc.devRef .tc main_v0) := rfl
theorem rd_main_arg0 (W : Valuation τ sig (Elt F)) :
    rd W (TRef.of (T := ⟨S8192x32000, .f32⟩) main_arg0) = W (Proc.devRef .tc main_arg0) := rfl

/-- After the first 15 operations the log-softmax's buffer holds the stage function of the logits. -/
theorem opsA_v0 (W : Valuation τ sig (Elt F)) :
    after opsA W (Proc.devRef .tc main_v0) = val_main_v0 (F := F) (W (Proc.devRef .tc main_arg0)) :=
  (rd_main_v0 (after opsA W)).symm.trans ((opsA_rd W).trans (congrArg val_main_v0 (rd_main_arg0 W)))

/-- The first 15 operations do not write argument 0. -/
theorem opsA_arg0 (W : Valuation τ sig (Elt F)) :
    after opsA W (Proc.devRef .tc main_arg0) = W (Proc.devRef .tc main_arg0) :=
  after_of_forall_not_mem (b := Proc.devRef .tc main_arg0) _ _ (List.forall_iff_forall_mem.mp (by
    simp only [opsA, List.Forall, nullary_writes, unary_writes, binary_writes, Finset.mem_singleton]
    repeat' apply And.intro
    all_goals exact devRef_ne_of_ne (by decide)))

/-- The first 15 operations do not write argument 1. -/
theorem opsA_arg1 (W : Valuation τ sig (Elt F)) :
    after opsA W (Proc.devRef .tc main_arg1) = W (Proc.devRef .tc main_arg1) :=
  after_of_forall_not_mem (b := Proc.devRef .tc main_arg1) _ _ (List.forall_iff_forall_mem.mp (by
    simp only [opsA, List.Forall, nullary_writes, unary_writes, binary_writes, Finset.mem_singleton]
    repeat' apply And.intro
    all_goals exact devRef_ne_of_ne (by decide)))

/-- The first 15 operations do not write argument 2. -/
theorem opsA_arg2 (W : Valuation τ sig (Elt F)) :
    after opsA W (Proc.devRef .tc main_arg2) = W (Proc.devRef .tc main_arg2) :=
  after_of_forall_not_mem (b := Proc.devRef .tc main_arg2) _ _ (List.forall_iff_forall_mem.mp (by
    simp only [opsA, List.Forall, nullary_writes, unary_writes, binary_writes, Finset.mem_singleton]
    repeat' apply And.intro
    all_goals exact devRef_ne_of_ne (by decide)))

/-! ## The run -/

/-- On every device, from any memory with zero counters: every weakly fair execution of the reference program
    terminates with its result at the last stage function of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = val_main_v36 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hcut : (ops : List (HloOp τ sig (Elt F))) = opsA ++ RefRunB.opsB := rfl
  refine (θ_run defs _ _).mono (fun r h c => ?_)
    (run_seq scopedRefs_eq scopedSems_eq defs main (fun _ => ops) main_eq (fun _ => ops_sub) m ρ)
  have hv : ∀ b : Ref sig .tc, r.2.mem ((c.tc : Thread nD τ).loc b)
      = after RefRunB.opsB (after opsA (launchContents m c)) (Proc.devRef .tc b) := fun b => by
    rw [h c b, hcut, after_append']
  have hk := RefRunB.kept (F := F) (after opsA (launchContents m c))
  refine ⟨(hv main_v36).trans (RefRunB.result _ _ _ _ (opsA_v0 _) (opsA_arg1 _) (opsA_arg2 _)), ?_, ?_, ?_⟩
  · exact (hv main_arg0).trans (hk.1.trans (opsA_arg0 _))
  · exact (hv main_arg1).trans (hk.2.1.trans (opsA_arg1 _))
  · exact (hv main_arg2).trans (hk.2.2.trans (opsA_arg2 _))

end Cert.Reweight.RefRun

end
-- ==== Proof.RefValue.lean ====
/-
  The reference program's result as the weighted mean of the rows' losses.

  Stage by stage: the row maximum (a max-reduce from −∞, then a max with −∞ again), the shifted logits, their
  exponentials' row sums, the logarithm, the log-softmax table; the rows' index pairs (row number, label), each made
  non-negative by adding the extent to a negative value — which changes nothing for a row number or for a label that
  is a column number —; the two point gathers, of the log-softmax table and of the probabilities; the per-row loss and
  weight; the two sums from zero and their quotient.
-/
import proofs.«426821_j4329327035176_3_alg».proof.Proof.RefRead
import proofs.«426821_j4329327035176_3_alg».proof.Proof.Spec
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

namespace Cert.Reweight.RefValue

open Cert.ReferenceIdeal Cert.ReferenceIdeal.Gen Cert.ReferenceIdeal.ReadP Cert.Reweight
open Idealize.ShloMosaic Idealize.ShloMosaic.ValueIdx

/-! ## A point gather read at one element -/

section Point
variable {α : Type}

/-- The dimension numbers of a point gather: an operand `[N, M]`, start indices `[R, 2]` (row `r` holds the pair of
    coordinates to read), the result `[R]`; both operand axes collapsed, slices of one element. -/
abbrev pointDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The row coordinate a point gather reads at `r`: the first entry of row `r` of the start indices, read signed and
    clamped into the operand's rows. -/
theorem point_operand_row {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    ((pointDims N M R wf).operandIdx (ix1 r) idx 0).val = min (idx (ix2 r 0)).toInt.toNat (N - 1) := by
  show (pointDims N M R wf).start (ix1 r) idx 0 + (pointDims N M R wf).batchCoord (ix1 r) 0
    + (pointDims N M R wf).offCoord (ix1 r) 0 = _
  have hmem : (0 : Fin 2) ∈ ([0, 1] : List (Fin 2)) := by simp
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show (0 : Fin 2) ∈ (pointDims N M R wf).startIndexMap from hmem)]
  have hsi : (pointDims N M R wf).siIdx (ix1 r) ⟨List.idxOf (0 : Fin 2) (pointDims N M R wf).startIndexMap,
      List.idxOf_lt_length_iff.2 hmem⟩ = ix2 r 0 := by
    funext b; refine Fin.ext ?_
    match b with
    | ⟨0, _⟩ => rfl
    | ⟨1, _⟩ => rfl
  rw [hsi]
  rfl

/-- The column coordinate a point gather reads at `r`: the second entry of row `r`, read signed and clamped into the
    operand's columns. -/
theorem point_operand_col {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    ((pointDims N M R wf).operandIdx (ix1 r) idx 1).val = min (idx (ix2 r 1)).toInt.toNat (M - 1) := by
  show (pointDims N M R wf).start (ix1 r) idx 1 + (pointDims N M R wf).batchCoord (ix1 r) 1
    + (pointDims N M R wf).offCoord (ix1 r) 1 = _
  have hmem : (1 : Fin 2) ∈ ([0, 1] : List (Fin 2)) := by simp
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show (1 : Fin 2) ∈ (pointDims N M R wf).startIndexMap from hmem)]
  have hsi : (pointDims N M R wf).siIdx (ix1 r) ⟨List.idxOf (1 : Fin 2) (pointDims N M R wf).startIndexMap,
      List.idxOf_lt_length_iff.2 hmem⟩ = ix2 r 1 := by
    funext b; refine Fin.ext ?_
    match b with
    | ⟨0, _⟩ => rfl
    | ⟨1, _⟩ => rfl
  rw [hsi]
  rfl

/-- The point gather read at `r`: the operand at the pair in row `r` of the start indices, each coordinate read signed
    and clamped into the operand's extent. -/
theorem gather_point_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pointDims N M R wf) x idx (ix1 r)
      = x (ix2 ⟨min (idx (ix2 r 0)).toInt.toNat (N - 1), by omega⟩
               ⟨min (idx (ix2 r 1)).toInt.toNat (M - 1), by omega⟩) := by
  unfold Host.gather
  refine congrArg x (funext fun a => Fin.ext ?_)
  match a with
  | ⟨0, _⟩ => exact point_operand_row wf idx r
  | ⟨1, _⟩ => exact point_operand_col wf idx r

end Point

/-! ## Two columns joined into pairs -/

section Pair
variable {α : Type}

/-- Two columns `[R, 1]` joined along axis 1, read at column 0: the first column. -/
theorem concat_cols_fst {R : Nat} (h : Shape.Concatenates [⟨2, ![R, 1]⟩, ⟨2, ![R, 1]⟩] ⟨2, ![R, 2]⟩ 1)
    (x₁ x₂ : (⟨2, ![R, 1]⟩ : Shape).Idx → α) (r : Fin R) :
    concatenate ⟨2, ![R, 2]⟩ 1 [⟨⟨2, ![R, 1]⟩, x₁⟩, ⟨⟨2, ![R, 1]⟩, x₂⟩] h (ix2 r 0) = x₁ (ix2 r 0) :=
  concatenate_pair_apply_left 1 x₁ x₂ h (ix2 r 0) rfl (ix2 r 0)
    (fun b => match b with | ⟨0, _⟩ => rfl | ⟨1, _⟩ => rfl)

/-- Two columns `[R, 1]` joined along axis 1, read at column 1: the second column. -/
theorem concat_cols_snd {R : Nat} (h : Shape.Concatenates [⟨2, ![R, 1]⟩, ⟨2, ![R, 1]⟩] ⟨2, ![R, 2]⟩ 1)
    (x₁ x₂ : (⟨2, ![R, 1]⟩ : Shape).Idx → α) (r : Fin R) :
    concatenate ⟨2, ![R, 2]⟩ 1 [⟨⟨2, ![R, 1]⟩, x₁⟩, ⟨⟨2, ![R, 1]⟩, x₂⟩] h (ix2 r 1) = x₂ (ix2 r 0) :=
  concatenate_pair_apply_right 1 x₁ x₂ h (ix2 r 1) rfl rfl (ix2 r 0)
    (fun b hb => match b, hb with
      | ⟨0, _⟩, _ => rfl
      | ⟨1, _⟩, hb => absurd rfl hb)
    rfl

end Pair

/-- The reference's gather is the point gather. -/
theorem gather_record_eq :
    gather_S8192x32000_S8192x2_S8192_n_01_n_n_01_1_11
      = pointDims 8192 32000 8192 gather_S8192x32000_S8192x2_S8192_n_01_n_n_01_1_11_wf := rfl

/-! ## Indices by their coordinates, and words -/

/-- A rank-1 index is `ix1` of its coordinate. -/
theorem idx1_ext {n : Nat} (i : (⟨1, ![n]⟩ : Shape).Idx) (r : Fin n) (h : (i 0).val = r.val) : i = ix1 r :=
  funext fun a => match a with | ⟨0, _⟩ => Fin.ext h

/-- A rank-2 index is `ix2` of its coordinates. -/
theorem idx2_ext {n0 n1 : Nat} (i : (⟨2, ![n0, n1]⟩ : Shape).Idx) (a : Fin n0) (b : Fin n1)
    (h0 : (i 0).val = a.val) (h1 : (i 1).val = b.val) : i = ix2 a b :=
  funext fun c => match c with
    | ⟨0, _⟩ => Fin.ext h0
    | ⟨1, _⟩ => Fin.ext h1

/-- A small number's word reads, signed, as the number. -/
theorem toInt_ofNat_small (n : Nat) (h : n < 2 ^ 31) : (BitVec.ofNat 32 n).toInt = (n : ℤ) := by
  have hc := BitVec.toInt_eq_toNat_cond (BitVec.ofNat 32 n)
  rw [BitVec.toNat_ofNat, Nat.mod_eq_of_lt (by omega)] at hc
  split_ifs at hc <;> omega

/-- "Add the extent to a negative value" keeps a word that is not negative. -/
theorem select_nonneg (a b : BitVec 32) (h : 0 ≤ a.toInt) :
    Scalar.select (IntOp.cmpi .slt a 0#32) b a = a := by
  have hc : IntOp.cmpi .slt a 0#32 = 0#1 := by
    show BitVec.ofBool (decide (a.toInt < (0#32).toInt)) = 0#1
    rw [BitVec.toInt_zero, decide_eq_false (by omega)]
    rfl
  rw [hc, select_zero]

/-- The f32 pattern of −∞. -/
theorem ofBits_neg_inf_f32 : Ideal.ofBits .f32 0xFF800000#32 = ⊥ := by simp [Ideal.ofBits, Ideal.ieee]

/-! ## The log-softmax table -/

/-- The row maximum: a max-reduce of the row from −∞, then a max with −∞. -/
theorem rowmax_at (L : SL.Idx → EReal) (r : Fin 8192) :
    val_main_call0_v2 (F := Ideal) L (ix1 r) = rowMax L r := by
  have hR : S8192x32000.Reduces [1] S8192 := by decide
  rw [val_main_call0_v2_apply, val_main_call0_v1_apply, val_main_call0_cst_0_apply]
  unfold val_main_call0_v0
  refine (congrArg (FloatOps.maximumf (F := Ideal) (φ := .f32) _)
    (Host.reduce_eq_fold_single (FloatOps.maximumf (F := Ideal) (φ := .f32)) L (val_main_call0_cst (F := Ideal))
      reducesTo_S8192x32000_S8192_d1 hR h_S_ (ix1 r))).trans ?_
  rw [val_main_call0_cst_apply, Ideal.ofBits_def, ofBits_neg_inf_f32]
  have hfun : (L ∘ hR.lift (ix1 r)) = fun j : Fin 32000 => L (ix2 r j) := by
    funext k
    exact congrArg L (idx2_ext _ _ _ rfl rfl)
  rw [hfun]
  show max ⊥ (Finset.univ.fold max ⊥ fun j : Fin 32000 => L (ix2 r j)) = _
  rw [max_bot_left]
  rfl

/-- The shifted logits. -/
theorem shifted_at (L : SL.Idx → EReal) (r : Fin 8192) (j : Fin 32000) :
    val_main_call0_v5 (F := Ideal) L (ix2 r j) = L (ix2 r j) - rowMax L r := by
  rw [val_main_call0_v5_apply, Ideal.subf_def, val_main_call0_v4_apply, val_main_call0_v3_apply,
    show idx_main_call0_v3 (idx_main_call0_v4 (ix2 r j)) = ix1 r from idx1_ext _ _ rfl, rowmax_at]

/-- The row sums of the exponentials, from zero. -/
theorem rowsum_at (L : SL.Idx → EReal) (r : Fin 8192) :
    val_main_call0_v7 (F := Ideal) L (ix1 r) = rowSum L r := by
  rw [val_main_call0_v7_apply, val_main_call0_cst_1_apply, Ideal.ofBits_def, Ideal.ofBits_zero_f32, zero_add]
  unfold rowSum
  refine Finset.sum_congr rfl fun k _ => ?_
  rw [show idx_main_call0_v7 (ix1 r) k = ix2 r k from idx2_ext _ _ _ rfl rfl, val_main_call0_v6_apply,
    Ideal.hostUnary_exp_def, shifted_at]

/-- The log-softmax table. -/
theorem logsoftmax_at (L : SL.Idx → EReal) (r : Fin 8192) (j : Fin 32000) :
    val_main_v0 (F := Ideal) L (ix2 r j) = (L (ix2 r j) - rowMax L r) - Ideal.log (rowSum L r) := by
  rw [val_main_v0_apply, Ideal.subf_def, shifted_at, val_main_call0_v10_apply, val_main_call0_v9_apply,
    Ideal.hostUnary_log_def, val_main_call0_v8_apply,
    show idx_main_call0_v8 (idx_main_call0_v10 (ix2 r j)) = ix1 r from idx1_ext _ _ rfl, rowsum_at]

/-! ## The index pairs -/

/-- The first pairs' row entry: the row number, kept by the select. -/
theorem pairA_row (Y : IVec SY 32) (r : Fin 8192) :
    val_main_v14 (F := Ideal) Y (ix2 r 0) = BitVec.ofNat 32 r.val := by
  unfold val_main_v14
  refine (concat_cols_fst _ _ _ r).trans ?_
  rw [val_main_v12_apply, show idx_main_v12 (ix2 r 0) = ix1 r from idx1_ext _ _ rfl, val_main_v6_apply,
    val_main_v3_apply, val_main_v1_apply, val_main_v2_apply, val_main_c_apply]
  exact select_nonneg _ _ (by rw [toInt_ofNat_small _ (by have := r.isLt; show r.val < 2 ^ 31; omega)]; omega)

/-- The first pairs' column entry: the label, kept by the select when it is a column number. -/
theorem pairA_col (Y : IVec SY 32) (hY : InRange Y) (r : Fin 8192) :
    val_main_v14 (F := Ideal) Y (ix2 r 1) = Y (ix1 r) := by
  unfold val_main_v14
  refine (concat_cols_snd _ _ _ r).trans ?_
  rw [val_main_v13_apply, show idx_main_v13 (ix2 r 0) = ix1 r from idx1_ext _ _ rfl, val_main_v11_apply,
    val_main_v8_apply, val_main_v7_apply, val_main_c_1_apply]
  exact select_nonneg _ _ (hY r).1

/-- The second pairs' row entry. -/
theorem pairB_row (Y : IVec SY 32) (r : Fin 8192) :
    val_main_v29 (F := Ideal) Y (ix2 r 0) = BitVec.ofNat 32 r.val := by
  unfold val_main_v29
  refine (concat_cols_fst _ _ _ r).trans ?_
  rw [val_main_v27_apply, show idx_main_v27 (ix2 r 0) = ix1 r from idx1_ext _ _ rfl, val_main_v21_apply,
    val_main_v18_apply, val_main_v1_apply, val_main_v17_apply, val_main_c_3_apply]
  exact select_nonneg _ _ (by rw [toInt_ofNat_small _ (by have := r.isLt; show r.val < 2 ^ 31; omega)]; omega)

/-- The second pairs' column entry. -/
theorem pairB_col (Y : IVec SY 32) (hY : InRange Y) (r : Fin 8192) :
    val_main_v29 (F := Ideal) Y (ix2 r 1) = Y (ix1 r) := by
  unfold val_main_v29
  refine (concat_cols_snd _ _ _ r).trans ?_
  rw [val_main_v28_apply, show idx_main_v28 (ix2 r 0) = ix1 r from idx1_ext _ _ rfl, val_main_v26_apply,
    val_main_v23_apply, val_main_v22_apply, val_main_c_5_apply]
  exact select_nonneg _ _ (hY r).1

/-- The point a row's pair names: the row itself and the label's column. -/
theorem point_of_pair (idx : IVec S8192x2 32) (Y : IVec SY 32) (r : Fin 8192)
    (h0 : idx (ix2 r 0) = BitVec.ofNat 32 r.val) (h1 : idx (ix2 r 1) = Y (ix1 r)) :
    (ix2 (⟨min (idx (ix2 r 0)).toInt.toNat (8192 - 1), by omega⟩ : Fin 8192)
         (⟨min (idx (ix2 r 1)).toInt.toNat (32000 - 1), by omega⟩ : Fin 32000) : SL.Idx) = ix2 r (col Y r) := by
  have hr := r.isLt
  refine idx2_ext _ _ _ ?_ ?_
  · show min (idx (ix2 r 0)).toInt.toNat (8192 - 1) = r.val
    rw [h0, toInt_ofNat_small _ (by omega)]
    omega
  · show min (idx (ix2 r 1)).toInt.toNat (32000 - 1) = min (Y (ix1 r)).toInt.toNat 31999
    rw [h1]

/-! ## The two gathers, the loss and the weight -/

/-- The gathered log-softmax: the table at the label's column. -/
theorem gatherA_at (L : SL.Idx → EReal) (Y : IVec SY 32) (hY : InRange Y) (r : Fin 8192) :
    val_main_v15 (F := Ideal) L Y (ix1 r) = val_main_v0 (F := Ideal) L (ix2 r (col Y r)) := by
  unfold val_main_v15
  rw [gather_record_eq]
  refine (gather_point_apply (by omega) (by omega) _ _ _ r).trans ?_
  exact congrArg _ (point_of_pair _ Y r (pairA_row Y r) (pairA_col Y hY r))

/-- The gathered probability: the table at the label's column. -/
theorem gatherB_at (B : SL.Idx → EReal) (Y : IVec SY 32) (hY : InRange Y) (r : Fin 8192) :
    val_main_v30 (F := Ideal) B Y (ix1 r) = B (ix2 r (col Y r)) := by
  unfold val_main_v30
  rw [gather_record_eq]
  refine (gather_point_apply (by omega) (by omega) _ _ _ r).trans ?_
  exact congrArg _ (point_of_pair _ Y r (pairB_row Y r) (pairB_col Y hY r))

/-- The row's loss. -/
theorem loss_at (L : SL.Idx → EReal) (Y : IVec SY 32) (hY : InRange Y) (r : Fin 8192) :
    val_main_v16 (F := Ideal) L Y (ix1 r) = lossR L Y r := by
  rw [val_main_v16_apply, Ideal.hostNegf_def, Ideal.negf_def, gatherA_at L Y hY r, logsoftmax_at]
  rfl

/-- The row's weight. -/
theorem weight_at (B : SL.Idx → EReal) (Y : IVec SY 32) (hY : InRange Y) (r : Fin 8192) :
    val_main_v32 (F := Ideal) B Y (ix1 r) = weight B Y r := by
  rw [val_main_v32_apply, Ideal.subf_def, val_main_v31_apply, val_main_cst_apply, Ideal.ofBits_def,
    gatherB_at B Y hY r]
  rfl

/-! ## The two sums and their quotient -/

/-- A sum over a rank-1 index set is the sum over its coordinate. -/
theorem sum_idx1 {n : Nat} (f : (⟨1, ![n]⟩ : Shape).Idx → EReal) : ∑ i, f i = ∑ r : Fin n, f (ix1 r) :=
  (Equiv.sum_comp idxEquiv1.symm f).symm

/-- With every label a column number, the reference's last stage is the weighted mean of "minus the label's
    log-softmax" with weights "1 − probability at the label". -/
theorem ref_value (L B : SL.Idx → EReal) (Y : IVec SY 32) (hY : InRange Y) :
    val_main_v36 (F := Ideal) L B Y = fun _ => total (weight B Y) (lossR L Y) := by
  funext i
  rw [val_main_v36_apply, Ideal.hostDivf_def, val_main_v34_apply, val_main_v35_apply, val_main_cst_7_apply,
    val_main_cst_8_apply, Ideal.ofBits_def, sum_idx1, sum_idx1]
  unfold total
  have hnum : ∀ r : Fin 8192, val_main_v33 (F := Ideal) L B Y (ix1 r) = weight B Y r * lossR L Y r := fun r => by
    rw [val_main_v33_apply, Ideal.mulf_def, weight_at B Y hY r, loss_at L Y hY r]
  have hden : ∀ r : Fin 8192, val_main_v32 (F := Ideal) B Y (ix1 r) = weight B Y r := fun r => weight_at B Y hY r
  rw [Finset.sum_congr rfl fun r _ => hnum r, Finset.sum_congr rfl fun r _ => hden r]

end Cert.Reweight.RefValue

end
-- ==== Proof.Claims.lean ====
/-
  The five claims.

  Under the precondition every logit and probability is a real number and every label a column number. The kernel's
  program then ends with the weighted mean of the rows' "logsumexp − label logit" (the region's two columns, read after
  the last tile of each row block, through the host operations that follow the region), the reference with the
  weighted mean of "minus the label's log-softmax"; on real logits these are the same number row by row.
-/
import proofs.«426821_j4329327035176_3_alg».proof.Defs
import proofs.«426821_j4329327035176_3_alg».proof.Proof.Gen.Kernel.Frame
import proofs.«426821_j4329327035176_3_alg».proof.Proof.Gen.KernelIdeal.Frame
import proofs.«426821_j4329327035176_3_alg».proof.Proof.Gen.ReferenceIdeal
import proofs.«426821_j4329327035176_3_alg».proof.Proof.Gen.Pre_finite_inputs
import proofs.«426821_j4329327035176_3_alg».proof.Proof.PreDecode
import proofs.«426821_j4329327035176_3_alg».proof.Proof.SpecLaws
import proofs.«426821_j4329327035176_3_alg».proof.Proof.Outputs
import proofs.«426821_j4329327035176_3_alg».proof.Proof.KernelTail
import proofs.«426821_j4329327035176_3_alg».proof.Proof.RefRun
import proofs.«426821_j4329327035176_3_alg».proof.Proof.RefValue

set_option maxRecDepth 65536

noncomputable section

open Idealize.ShloMosaic Idealize.ShloMosaic.TcCoe Idealize.SL.Sem Idealize.ShloMosaic.ValueIdx

/-! ## The kernel's program: its result -/

namespace Cert.Reweight.KRun

open Cert.KernelIdeal Cert.KernelIdeal.Gen Cert.Reweight Cert.Reweight.Blocks

variable (m : (ℓ : Loc nD τ sig) → Buf (Elt Ideal) ℓ) (ρ : Dev nD → PrngReg)

/-- The program's result on one core. -/
abbrev result (c : Dev nD) : Buf (Elt Ideal) ((c.tc : Thread nD τ).loc main_v9) :=
  fun _ => total (weight (m ((c.tc : Thread nD τ).loc main_arg1)) (labels m c)) (lossK (logits m c) (labels m c))

/-- With real logits and labels that are column numbers, every execution of the kernel's program ends with the
    weighted mean of the rows' losses and its arguments unchanged. -/
theorem run (hL : ∀ c, Finite (logits m c)) (hY : ∀ c, InRange (labels m c)) :
    θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨?_, ?_, ?_, ?_⟩) (run_main m ρ)
  · refine ((h c).2 main_v9 (Pipeline.mem_restRefs_of main_v9 (by decide) (by decide))).trans ?_
    refine (Tail.tail_result m c _ _ rfl rfl (hY c)).trans ?_
    funext _
    show total _ _ = total _ _
    congr 1
    funext r
    rw [Out.final_lse m c (hL c) r, Out.final_lab m c (hL c) (hY c) r]
    rfl
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.Reweight.KRun

/-! ## The claims -/

namespace Cert.Reweight.Claims

open Cert.Reweight

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Reweight.RefRun.run (F := Ideal) m ρ)

theorem preserves : Cert.preserves_Kernel_KernelIdeal := trivial

/-- Both programs end at the weighted mean of the rows' losses: the kernel's "logsumexp − label logit" and the
    reference's "minus the label's log-softmax" are one number on real logits. -/
theorem algebraic : Cert.algebraic_KernelIdeal_ReferenceIdeal := by
  intro m ρ m' ρ' hpre hagree
  have hdec := fun c => pre_decode _ _ _ (hpre c)
  refine ⟨fun c => KRun.result m c, KRun.run m ρ (fun c => (hdec c).1) (fun c => (hdec c).2.2), ?_⟩
  refine (θ_run Cert.ReferenceIdeal.defs _ _).mono (fun _ h c => ⟨(h c).1.trans ?_, (h c).2⟩)
    (Cert.Reweight.RefRun.run (F := Ideal) m' ρ')
  refine (congr (congr (congrArg (Cert.ReferenceIdeal.ReadP.val_main_v36 (F := Ideal)) (hagree c).1) (hagree c).2.1)
    (hagree c).2.2).trans ((RefValue.ref_value _ _ _ (hdec c).2.2).trans ?_)
  funext _
  show total _ _ = total _ _
  congr 1
  funext r
  exact (lossK_eq_lossR _ (hdec c).1 _ r).symm

end Cert.Reweight.Claims

end
-- ==== Proof.lean ====
/-
  The certificate's claim: the kernel's program (a tiled online logsumexp with the label's logit picked out by a
  column mask, then a gather of the label's probability and a weighted mean on the host) and the reference (a
  log-softmax table, two point gathers, the same weighted mean) compute one number on real inputs whose labels are
  column numbers; the three programs run and keep their arguments; the idealization rewrote nothing.
-/
import proofs.«426821_j4329327035176_3_alg».proof.Defs
import proofs.«426821_j4329327035176_3_alg».proof.Proof.Gen.Kernel
import proofs.«426821_j4329327035176_3_alg».proof.Proof.Gen.KernelIdeal
import proofs.«426821_j4329327035176_3_alg».proof.Proof.Gen.ReferenceIdeal
import proofs.«426821_j4329327035176_3_alg».proof.Proof.Gen.Pre_finite_inputs
import proofs.«426821_j4329327035176_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Reweight.Claims.frame_k, Cert.Reweight.Claims.frame_ki, Cert.Reweight.Claims.frame_ri,
    Cert.Reweight.Claims.preserves, Cert.Reweight.Claims.algebraic⟩

end Cert.Proof

end
